-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S2048x2048 : Shape := ⟨2, ![2048, 2048]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S32x2048 .f32) (main_arg1 : FVec F S2048x2048 .f32) (main_arg2 : FVec F S2048x2048 .f32) (main_arg3 : FVec F S2048x2048 .f32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Kernel.lean ====
abbrev S32x2048 : Shape := ⟨2, ![32, 2048]⟩
abbrev S2048x2048 : Shape := ⟨2, ![2048, 2048]⟩
abbrev S512x512 : Shape := ⟨2, ![512, 512]⟩
abbrev S128x2048 : Shape := ⟨2, ![128, 2048]⟩
abbrev S32x512 : Shape := ⟨2, ![32, 512]⟩
abbrev S32x128 : Shape := ⟨2, ![32, 128]⟩

abbrev nBuf : Space → Nat
  | .hbm => 5
  | .vmem => 26
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S32x2048, .f32⟩
  | .local _ .vmem, ⟨0, _⟩ => ⟨S32x2048, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_36 : BitVec 32 := 0#32
  let v48 : BitVec 1 := Scalar.cmpi .ne v47 c0_i32_36
  v48

def k0_cond2 (i : grid0.Coords) : BitVec 1 :=
  let arg0 : BitVec 32 := BitVec.ofNat 32 (i 0).val
  let c0_i32_37 : BitVec 32 := 0#32
  let v49 : BitVec 1 := Scalar.cmpi .sgt arg0 c0_i32_37
  let v50 : BitVec 32 := Scalar.extui v49
  let c0_i32_38 : BitVec 32 := 0#32
  let v51 : BitVec 1 := Scalar.cmpi .ne v50 c0_i32_38
  v51

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_3 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_4 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_7 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_8 (i : grid0.Coords) : Fin 2 → Nat :=
  let arg0 : BitVec 32 := BitVec.ofNat 32 (i 0).val
  let c3_i32 : BitVec 32 := 3#32
  let c0_i32 : BitVec 32 := 0#32
  ![c3_i32.toNat, arg0.toNat]

def cc0_transform_9 (i : grid0.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S32x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

class Facts₀ : Prop where
  inb_S32x2048_S32x2048_0_0 : ∀ a, (![0, 0] : Fin 2 → Nat) a + S32x2048.size a ≤ S32x2048.size a
  h_S32x2048 : 0 < S32x2048.numel
  slices_S32x2048_o0_0_S32x512 : S32x2048.Slices ![0, 0] S32x512
  inb_S512x512_S512x512_0_0 : ∀ a, (![0, 0] : Fin 2 → Nat) a + S512x512.size a ≤ S512x512.size a
  h_S512x512 : 0 < S512x512.numel
  slices_S32x2048_o0_512_S32x512 : S32x2048.Slices ![0, 512] S32x512
  slices_S32x2048_o0_1024_S32x512 : S32x2048.Slices ![0, 1024] S32x512
  slices_S32x2048_o0_1536_S32x512 : S32x2048.Slices ![0, 1536] S32x512
  slices_S32x512_o0_0_S32x128 : S32x512.Slices ![0, 0] S32x128
  inb_S128x2048_S128x2048_0_0 : ∀ a, (![0, 0] : Fin 2 → Nat) a + S128x2048.size a ≤ S128x2048.size a
  h_S128x2048 : 0 < S128x2048.numel
  slices_S32x512_o0_128_S32x128 : S32x512.Slices ![0, 128] S32x128
  slices_S32x512_o0_256_S32x128 : S32x512.Slices ![0, 256] S32x128
  slices_S32x512_o0_384_S32x128 : S32x512.Slices ![0, 384] S32x128
  shapeCasts_S32x2048_S32x2048 : S32x2048.ShapeCasts S32x2048
  dot_S32x512_S512x512_S32x512_1_0_0_1_n_n_wf : DotDims.WF S32x512 S512x512 S32x512 [1] [0] [0] [1] [] []
  dot_S32x128_S128x2048_S32x2048_1_0_0_1_n_n_wf : DotDims.WF S32x128 S128x2048 S32x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x2048.size a ≤ S32x2048.size a
  hwx0_0 : ∀ i : grid0.Coords, EltTy.bits .f32 = 32 ∨ (Rect.block (s := S32x2048) S32x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x2048.size a
  hwx0_1 : ∀ i : grid0.Coords, EltTy.bits .f32 = 32 ∨ (Rect.block (s := S2048x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S2048x2048.size a
  hwx0_2 : ∀ i : grid0.Coords, EltTy.bits .f32 = 32 ∨ (Rect.block (s := S2048x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S2048x2048.size a
  hwx0_3 : ∀ i : grid0.Coords, EltTy.bits .f32 = 32 ∨ (Rect.block (s := S2048x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x2048.size a
  hwx0_4 : ∀ i : grid0.Coords, EltTy.bits .f32 = 32 ∨ (Rect.block (s := S2048x2048) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S2048x2048.size a
  hwx0_5 : ∀ i : grid0.Coords, EltTy.bits .f32 = 32 ∨ (Rect.block (s := S2048x2048) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S2048x2048.size a
  hwx0_6 : ∀ i : grid0.Coords, EltTy.bits .f32 = 32 ∨ (Rect.block (s := S2048x2048) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S2048x2048.size a
  hwx0_7 : ∀ i : grid0.Coords, EltTy.bits .f32 = 32 ∨ (Rect.block (s := S2048x2048) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S2048x2048.size a
  hwx0_8 : ∀ i : grid0.Coords, EltTy.bits .f32 = 32 ∨ (Rect.block (s := S2048x2048) S512x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x2048.size a ≤ S2048x2048.size a
  hwx0_9 : ∀ i : grid0.Coords, EltTy.bits .f32 = 32 ∨ (Rect.block (s := S2048x2048) S128x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S2048x2048.size a
  hwx0_10 : ∀ i : grid0.Coords, EltTy.bits .f32 = 32 ∨ (Rect.block (s := S2048x2048) S128x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x2048.size a ≤ S2048x2048.size a
  hwx0_11 : ∀ i : grid0.Coords, EltTy.bits .f32 = 32 ∨ (Rect.block (s := S2048x2048) S128x2048.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x2048.size a ≤ S2048x2048.size a
  hwx0_12 : ∀ i : grid0.Coords, EltTy.bits .f32 = 32 ∨ (Rect.block (s := S2048x2048) S128x2048.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S32x2048.size a ≤ S32x2048.size a
  hwx0_13 : ∀ i : grid0.Coords, EltTy.bits .f32 = 32 ∨ (Rect.block (s := S32x2048) S32x2048.size (cc0_transform_13 i) (hinb0_13 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x128_S128x2048_S32x2048_1_0_0_1_n_n : DotDims S32x128 S128x2048 S32x2048 where
  lhsContracting := [1]
  rhsContracting := [0]
  lhsNonContracting := [0]
  rhsNonContracting := [1]
  lhsBatch := []
  rhsBatch := []
  wf := dot_S32x128_S128x2048_S32x2048_1_0_0_1_n_n_wf

abbrev win0_0 : Pipeline.Window sig grid0 :=
  Pipeline.Window.ofSpec (Memref.whole main_arg0) S32x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S512x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S512x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S512x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg3) S128x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg3) S128x2048.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg3) S128x2048.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg3) S128x2048.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0) S32x2048.size cc0_transform_13 reads0_13 true true 1 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond1 i == 1#1) && !(k0_cond2 i == 1#1) | ⟨_ + 14, h⟩ => absurd h (Nat.not_lt.2 (Nat.le_add_left _ _))

class Facts : Prop extends Facts₀ where

variable [Facts]
-- ==== ReferenceIdeal.lean ====
abbrev S32x2048 : Shape := ⟨2, ![32, 2048]⟩
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S32x2048, .f32⟩
  | .hbm, ⟨5, _⟩ => ⟨S32x2048, .f32⟩
  | .hbm, ⟨6, _⟩ => ⟨S32x2048, .f32⟩
  | .hbm, ⟨7, _⟩ => ⟨S32x2048, .f32⟩
  | .hbm, ⟨8, _⟩ => ⟨S_, .f32⟩
  | .hbm, ⟨9, _⟩ => ⟨S32x2048, .f32⟩
  | .hbm, ⟨10, _⟩ => ⟨S32x2048, .f32⟩
  | .hbm, ⟨11, _⟩ => ⟨S_, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S32x2048, .f32⟩
  | .hbm, ⟨16, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  dot_S32x2048_S2048x2048_S32x2048_1_0_0_1_n_n_wf : DotDims.WF S32x2048 S2048x2048 S32x2048 [1] [0] [0] [1] [] []

variable [Facts₀]

def dot_S32x2048_S2048x2048_S32x2048_1_0_0_1_n_n : DotDims S32x2048 S2048x2048 S32x2048 where
  lhsContracting := [1]
  rhsContracting := [0]
  lhsNonContracting := [0]
  rhsNonContracting := [1]
  lhsBatch := []
  rhsBatch := []
  wf := dot_S32x2048_S2048x2048_S32x2048_1_0_0_1_n_n_wf

class Facts : Prop extends Facts₀ where

variable [Facts]
-- ==== Proof.Kernel.Setup.lean ====
/-
  The fused SwiGLU kernel, one pallas_call on a grid of four points j = 0..3 over the intermediate axis. Fourteen
  windows: x whole (fetched once); the gate weight's block column j as four row blocks of 512 rows (windows 1-4,
  all on ONE array); the up weight's likewise (windows 5-8, one array); the down weight's rows 512 j .. 512 j + 511 as
  four blocks of 128 rows (windows 9-12, one array); and the result, whole, resident in its staging buffer over all
  four points and written back after the last. The body stores its contribution at j = 0 and adds it to what the
  buffer holds at j > 0.
  This module: what the region is entered with (the launch contents: @main is the region alone), the two branch
  conditions in closed form over the grid, the staging memrefs the pipeline calls the body with, and each window's
  block read off its array.
-/
import proofs.«160544_g77111842832762_cont_sun_m_58_31_alg».proof.Proof.Gen.Kernel.Launch
import proofs.«160544_g77111842832762_cont_sun_m_58_31_alg».proof.Proof.Gen.Kernel.Skeleton
import proofs.«160544_g77111842832762_cont_sun_m_58_31_alg».proof.Proof.Gen.Kernel.Points
import Idealize.ShloMosaic.Lib.Pipeline.Frame
import Idealize.ShloMosaic.Lib.Pipeline.FrameBody
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s TensorCore buffers when the region is entered: as launched. -/
abbrev V (c : Dev nD) (b : Ref sig .tc) : Buf (Elt F) ((c : Thread nD τ).loc b) := m ((c : Thread nD τ).loc b)

/-- @main is the region, then the return. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The two branches, decided over the grid -/

/-- The store branch (`j == 0`) is taken at the first point only, -/
theorem hcond1 : ∀ t : Fin cfg0.N, k0_cond1 (grid0.coords t) = 1#1 ↔ t.val = 0 :=
  (by decide +kernel : ∀ t : Fin grid0.N, k0_cond1 (grid0.coords t) = 1#1 ↔ t.val = 0)

/-- the accumulate branch (`j > 0`) at every other point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-! ## A window's block, read off its array as the region finds it -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Fr

end
-- ==== Proof.Kernel.Inputs.lean ====
/-
  What the body is handed of its thirteen input windows, as one assertion: x's staging buffer, the four row blocks of
  the gate weight's block column, the four of the up weight's, and the four 128-row blocks of the down weight's rows,
  each whole at the contents named.
-/
import proofs.«160544_g77111842832762_cont_sun_m_58_31_alg».proof.Proof.Kernel.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen input staging buffers, whole, at the contents `x`, `g·` (gate), `u·` (up), `d·` (down). -/
def inputs (c : Dev nD) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (x : Vec F S32x2048 .f32) (g0 g1 g2 g3 u0 u1 u2 u3 : Vec F S512x512 .f32) (d0 d1 d2 d3 : Vec F S128x2048 .f32) : sProp 𝕄 :=
  iprop(owns (c : Thread nD τ) a1 fullShare x
    ∗ owns (c : Thread nD τ) a2 fullShare g0 ∗ owns (c : Thread nD τ) a3 fullShare g1 ∗ owns (c : Thread nD τ) a4 fullShare g2 ∗ owns (c : Thread nD τ) a5 fullShare g3
    ∗ owns (c : Thread nD τ) a6 fullShare u0 ∗ owns (c : Thread nD τ) a7 fullShare u1 ∗ owns (c : Thread nD τ) a8 fullShare u2 ∗ owns (c : Thread nD τ) a9 fullShare u3
    ∗ owns (c : Thread nD τ) a10 fullShare d0 ∗ owns (c : Thread nD τ) a11 fullShare d1 ∗ owns (c : Thread nD τ) a12 fullShare d2 ∗ owns (c : Thread nD τ) a13 fullShare d3)

end Cert.Kernel.Fr

end
-- ==== Proof.Kernel.RunA.lean ====
/-
  The body's run at the first grid point (the store branch taken, the accumulate branch not): from the thirteen
  input buffers at their contents and the result's staging buffer at anything, the body runs, hands the inputs back
  as they were, and leaves the result's buffer with the pieces its one store wrote. The pieces are the witness of a
  subtype the symbolic run finds.
-/
import proofs.«160544_g77111842832762_cont_sun_m_58_31_alg».proof.Proof.Kernel.Inputs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the result's staging buffer at a point where `j == 0`, with the run. -/
noncomputable def runA (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : k0_cond1 i = 1#1) (hc2 : ¬k0_cond2 i = 1#1)
    (x : Vec F S32x2048 .f32) (g0 g1 g2 g3 u0 u1 u2 u3 : Vec F S512x512 .f32) (d0 d1 d2 d3 : Vec F S128x2048 .f32) :
    { L : List (View.Piece (Elt F) S32x2048 .f32) //
      ∀ (E : Set ℕ) (K : PUnit → sProp 𝕄),
        iprop(inputs c a1 h1 a2 h2 a3 h3 a4 h4 a5 h5 a6 h6 a7 h7 a8 h8 a9 h9 a10 h10 a11 h11 a12 h12 a13 h13 x g0 g1 g2 g3 u0 u1 u2 u3 d0 d1 d2 d3 ∗ (∃ d, owns (c : Thread nD τ) a14 fullShare d)
            ∗ (iprop(inputs c a1 h1 a2 h2 a3 h3 a4 h4 a5 h5 a6 h6 a7 h7 a8 h8 a9 h9 a10 h10 a11 h11 a12 h12 a13 h13 x g0 g1 g2 g3 u0 u1 u2 u3 d0 d1 d2 d3
                ∗ (∃ f, a14.view.loc (c : Thread nD τ) ↦[a14.view.set]{fullShare} a14.view.writes (Elt F) f L)) -∗ K ⟨⟩))
          ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14) K } := by
  refine ⟨?_, fun E K => ?run⟩
  case run =>
    simp only [cc0__mlp_kernel_eq_skeleton]; unfold cc0__mlp_kernel_skel
    unfold inputs owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hc1 | exact hc2)
    sl_step
    iapply Hk
    isplitr [H14]
    swap; · iexists _; iexact H14
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    iexists _; isplitr; · ipureintro; exact h13.read_unread _
    iexact H13

end Cert.Kernel.Fr

end
-- ==== Proof.Kernel.RunB.lean ====
/-
  The body's run at a later grid point (the store branch not taken, the accumulate branch taken): from the thirteen
  input buffers at their contents and the result's staging buffer at the running sum `acc`, the body runs, hands the
  inputs back as they were, and leaves the result's buffer with the pieces its one store wrote — the running sum
  plus this point's contribution. The pieces are the witness of a subtype the symbolic run finds.
-/
import proofs.«160544_g77111842832762_cont_sun_m_58_31_alg».proof.Proof.Kernel.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the result's staging buffer at a point where `j > 0`, with the run. -/
noncomputable def runB (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : ¬k0_cond1 i = 1#1) (hc2 : k0_cond2 i = 1#1)
    (x : Vec F S32x2048 .f32) (g0 g1 g2 g3 u0 u1 u2 u3 : Vec F S512x512 .f32) (d0 d1 d2 d3 : Vec F S128x2048 .f32) (acc : Vec F S32x2048 .f32) :
    { L : List (View.Piece (Elt F) S32x2048 .f32) //
      ∀ (E : Set ℕ) (K : PUnit → sProp 𝕄),
        iprop(inputs c a1 h1 a2 h2 a3 h3 a4 h4 a5 h5 a6 h6 a7 h7 a8 h8 a9 h9 a10 h10 a11 h11 a12 h12 a13 h13 x g0 g1 g2 g3 u0 u1 u2 u3 d0 d1 d2 d3 ∗ owns (c : Thread nD τ) a14 fullShare acc
            ∗ (iprop(inputs c a1 h1 a2 h2 a3 h3 a4 h4 a5 h5 a6 h6 a7 h7 a8 h8 a9 h9 a10 h10 a11 h11 a12 h12 a13 h13 x g0 g1 g2 g3 u0 u1 u2 u3 d0 d1 d2 d3
                ∗ (∃ f, a14.view.loc (c : Thread nD τ) ↦[a14.view.set]{fullShare} a14.view.writes (Elt F) f L)) -∗ K ⟨⟩))
          ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14) K } := by
  refine ⟨?_, fun E K => ?run⟩
  case run =>
    simp only [cc0__mlp_kernel_eq_skeleton]; unfold cc0__mlp_kernel_skel
    unfold inputs owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%f14, %hf14, H14⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
    sl_exec (disch := first | exact hc1 | exact hc2)
    sl_step
    iapply Hk
    isplitr [H14]
    swap; · iexists _; iexact H14
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    iexists _; isplitr; · ipureintro; exact h13.read_unread _
    iexact H13

end Cert.Kernel.Fr

end
-- ==== Proof.Kernel.Data.lean ====
/-
  What the body leaves, read back, and the proof data of the pipeline.

  The one store of a point covers the result's staging block; read back, it is the payload: at the first point the
  point's contribution (`contrib`), at a later point the running sum plus the contribution (`accum`). So the result's
  staging buffer after point n holds `acc n`, by recursion on the point: the buffer is resident (its block index never
  moves) and is written back only after the last point.

  The proof data: the arrays as the region finds them; each input window leaves its block in place; the result's window
  leaves `acc`; no invariant beside that (the kernel has no scratch and draws no random bits); nothing owed. Windows
  1-4 read ONE array (the gate weight), 5-8 one (the up weight), 9-12 one (the down weight): each of the four holds a
  quarter of its array's full share, the two halves of the two halves.
-/
import proofs.«160544_g77111842832762_cont_sun_m_58_31_alg».proof.Proof.Kernel.RunB
import Idealize.ShloMosaic.Lib.Pipeline.Value
import Idealize.ShloMosaic.Lib.Ring

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The payloads -/

/-- A point's contribution to the result from the blocks it is handed: the down projection of the activation. -/
def contrib (x : Vec F S32x2048 .f32) (g0 g1 g2 g3 u0 u1 u2 u3 : Vec F S512x512 .f32) (d0 d1 d2 d3 : Vec F S128x2048 .f32) : FVec F S32x2048 .f32 :=
  k0_pay1 (k0_pay3 x g0 u0 g1 u1 g2 u2 g3 u3) (k0_pay4 x g0 u0 g1 u1 g2 u2 g3 u3) d0 d1 d2 d3

/-- The running sum after a later point: what the buffer held plus the point's contribution. -/
def accum (x : Vec F S32x2048 .f32) (g0 g1 g2 g3 u0 u1 u2 u3 : Vec F S512x512 .f32) (d0 d1 d2 d3 : Vec F S128x2048 .f32) (acc : Vec F S32x2048 .f32) : FVec F S32x2048 .f32 :=
  k0_pay2 (k0_pay3 x g0 u0 g1 u1 g2 u2 g3 u3) (k0_pay4 x g0 u0 g1 u1 g2 u2 g3 u3) d0 d1 d2 d3 acc

theorem hz2 : (![0, 0] : Fin 2 → Nat) = fun _ => 0 := by funext a; fin_cases a <;> rfl

/-! ## The store's pieces cover the block, and read back as the payload -/

theorem coverA (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : k0_cond1 i = 1#1) (hc2 : ¬k0_cond2 i = 1#1)
    (x : Vec F S32x2048 .f32) (g0 g1 g2 g3 u0 u1 u2 u3 : Vec F S512x512 .f32) (d0 d1 d2 d3 : Vec F S128x2048 .f32) (y : S32x2048.Idx) :
    ∃ pc ∈ (runA (F := F) c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3).1, y ∈ pc.1.set :=
  View.cover_of_tiledL (runA c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3).1 S32x2048.size (by sl_kernel_rfl) y

theorem readA (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : k0_cond1 i = 1#1) (hc2 : ¬k0_cond2 i = 1#1)
    (x : Vec F S32x2048 .f32) (g0 g1 g2 g3 u0 u1 u2 u3 : Vec F S512x512 .f32) (d0 d1 d2 d3 : Vec F S128x2048 .f32) (f : a14.view.ty.Contents (Elt F)) :
    a14.view.read (Elt F) (a14.view.writes (Elt F) f (runA (F := F) c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3).1)
      = contrib x g0 g1 g2 g3 u0 u1 u2 u3 d0 d1 d2 d3 := by
  rw [View.read_writes_eq_canon _ _ _ (coverA c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3)]
  unfold runA contrib
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S32x2048) hz2, View.ld_unit_zero (S := S512x512) hz2, View.ld_unit_zero (S := S128x2048) hz2]

theorem coverB (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : ¬k0_cond1 i = 1#1) (hc2 : k0_cond2 i = 1#1)
    (x : Vec F S32x2048 .f32) (g0 g1 g2 g3 u0 u1 u2 u3 : Vec F S512x512 .f32) (d0 d1 d2 d3 : Vec F S128x2048 .f32) (acc : Vec F S32x2048 .f32) (y : S32x2048.Idx) :
    ∃ pc ∈ (runB (F := F) c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3 acc).1, y ∈ pc.1.set :=
  View.cover_of_tiledL (runB c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3 acc).1 S32x2048.size (by sl_kernel_rfl) y

theorem readB (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : ¬k0_cond1 i = 1#1) (hc2 : k0_cond2 i = 1#1)
    (x : Vec F S32x2048 .f32) (g0 g1 g2 g3 u0 u1 u2 u3 : Vec F S512x512 .f32) (d0 d1 d2 d3 : Vec F S128x2048 .f32) (acc : Vec F S32x2048 .f32) (f : a14.view.ty.Contents (Elt F)) :
    a14.view.read (Elt F) (a14.view.writes (Elt F) f (runB (F := F) c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3 acc).1)
      = accum x g0 g1 g2 g3 u0 u1 u2 u3 d0 d1 d2 d3 acc := by
  rw [View.read_writes_eq_canon _ _ _ (coverB c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3 acc)]
  unfold runB accum
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S32x2048) hz2, View.ld_unit_zero (S := S512x512) hz2, View.ld_unit_zero (S := S128x2048) hz2]

/-! ## The running sum, point by point -/

/-- Point `t`'s contribution, from the blocks of the arrays as the region finds them. -/
def contribAt (c : Dev nD) (t : Fin cfg0.N) : Vec F S32x2048 .f32 :=
  contrib (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- What the result's staging buffer holds after the body at point `n`. -/
def acc (c : Dev nD) : (n : ℕ) → n < cfg0.N → Vec F S32x2048 .f32
  | 0, hn => contribAt m c ⟨0, hn⟩
  | n + 1, hn => accum (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (acc c n (Nat.lt_of_succ_lt hn))

theorem acc_zero (c : Dev nD) (t : Fin cfg0.N) (h0 : t.val = 0) : acc m c t.val t.isLt = contribAt m c t := by
  obtain ⟨n, hn⟩ := t
  cases n with
  | zero => rfl
  | succ n => exact absurd h0 (Nat.succ_ne_zero n)

theorem acc_pos (c : Dev nD) (t : Fin cfg0.N) (h0 : t.val ≠ 0) :
    acc m c t.val t.isLt = accum (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (acc m c (t.val - 1) (Nat.lt_of_le_of_lt (Nat.sub_le _ _) t.isLt)) := by
  obtain ⟨n, hn⟩ := t
  cases n with
  | zero => exact absurd rfl h0
  | succ n => rfl

/-! ## The proof data -/

/-- The share each window holds of its array: x's and the result's whole; of each weight, a quarter per window. -/
def qOf : Fin 14 → PosShare TreeShare
  | ⟨0, _⟩ => fullShare
  | ⟨1, _⟩ => fullShare.left.left | ⟨2, _⟩ => fullShare.left.right | ⟨3, _⟩ => fullShare.right.left | ⟨4, _⟩ => fullShare.right.right
  | ⟨5, _⟩ => fullShare.left.left | ⟨6, _⟩ => fullShare.left.right | ⟨7, _⟩ => fullShare.right.left | ⟨8, _⟩ => fullShare.right.right
  | ⟨9, _⟩ => fullShare.left.left | ⟨10, _⟩ => fullShare.left.right | ⟨11, _⟩ => fullShare.right.left | ⟨12, _⟩ => fullShare.right.right
  | ⟨13, _⟩ => fullShare

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => acc m c t.val t.isLt
  Φ _ := iprop(emp)
  q := qOf
  owed _ := 0

theorem A_eq (c : Dev nD) (w : Fin cfg0.W) : (dats m 0 c).A w = V m c (Pipeline.arrRef spec0 w) := by
  dsimp only [dats]

theorem after_out (c : Dev nD) (t : Fin cfg0.N) : (dats m 0 c).after 13 t = acc m c t.val t.isLt := by dsimp only [dats]

/-- An input window's staging buffer holds its block at every point, fetched there or not: unfetched, the block index
    has not moved (the body leaves the block in place, the window is never idle and its blocks tile its array). -/
theorem before_w0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; rfl) t d).trans
    (by unfold Dat.fetched Dat.blockOf iblk; dsimp only [dats]; rfl)
theorem before_w1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; rfl) t d).trans
    (by unfold Dat.fetched Dat.blockOf iblk; dsimp only [dats]; rfl)
theorem before_w2 (c : Dev nD) (t : Fin cfg0.N) (d) : (dats m 0 c).before 2 t d = iblk m c 2 t :=
  ((dats m 0 c).before_in_eq_fetched 2 rfl (fun _ => rfl) (fun _ _ _ => rfl)
    (fun t => by dsimp only [dats]; unfold Dat.blockOf iblk; rfl) t d).trans
    (by unfold Dat.fetched Dat.blockOf iblk; dsimp only [dats]; rfl)
theorem before_w3 (c : Dev nD) (t : Fin cfg0.N) (d) : (dats m 0 c).before 3 t d = iblk m c 3 t :=
  ((dats m 0 c).before_in_eq_fetched 3 rfl (fun _ => rfl) (fun _ _ _ => rfl)
    (fun t => by dsimp only [dats]; unfold Dat.blockOf iblk; rfl) t d).trans
    (by unfold Dat.fetched Dat.blockOf iblk; dsimp only [dats]; rfl)
theorem before_w4 (c : Dev nD) (t : Fin cfg0.N) (d) : (dats m 0 c).before 4 t d = iblk m c 4 t :=
  ((dats m 0 c).before_in_eq_fetched 4 rfl (fun _ => rfl) (fun _ _ _ => rfl)
    (fun t => by dsimp only [dats]; unfold Dat.blockOf iblk; rfl) t d).trans
    (by unfold Dat.fetched Dat.blockOf iblk; dsimp only [dats]; rfl)
theorem before_w5 (c : Dev nD) (t : Fin cfg0.N) (d) : (dats m 0 c).before 5 t d = iblk m c 5 t :=
  ((dats m 0 c).before_in_eq_fetched 5 rfl (fun _ => rfl) (fun _ _ _ => rfl)
    (fun t => by dsimp only [dats]; unfold Dat.blockOf iblk; rfl) t d).trans
    (by unfold Dat.fetched Dat.blockOf iblk; dsimp only [dats]; rfl)
theorem before_w6 (c : Dev nD) (t : Fin cfg0.N) (d) : (dats m 0 c).before 6 t d = iblk m c 6 t :=
  ((dats m 0 c).before_in_eq_fetched 6 rfl (fun _ => rfl) (fun _ _ _ => rfl)
    (fun t => by dsimp only [dats]; unfold Dat.blockOf iblk; rfl) t d).trans
    (by unfold Dat.fetched Dat.blockOf iblk; dsimp only [dats]; rfl)
theorem before_w7 (c : Dev nD) (t : Fin cfg0.N) (d) : (dats m 0 c).before 7 t d = iblk m c 7 t :=
  ((dats m 0 c).before_in_eq_fetched 7 rfl (fun _ => rfl) (fun _ _ _ => rfl)
    (fun t => by dsimp only [dats]; unfold Dat.blockOf iblk; rfl) t d).trans
    (by unfold Dat.fetched Dat.blockOf iblk; dsimp only [dats]; rfl)
theorem before_w8 (c : Dev nD) (t : Fin cfg0.N) (d) : (dats m 0 c).before 8 t d = iblk m c 8 t :=
  ((dats m 0 c).before_in_eq_fetched 8 rfl (fun _ => rfl) (fun _ _ _ => rfl)
    (fun t => by dsimp only [dats]; unfold Dat.blockOf iblk; rfl) t d).trans
    (by unfold Dat.fetched Dat.blockOf iblk; dsimp only [dats]; rfl)
theorem before_w9 (c : Dev nD) (t : Fin cfg0.N) (d) : (dats m 0 c).before 9 t d = iblk m c 9 t :=
  ((dats m 0 c).before_in_eq_fetched 9 rfl (fun _ => rfl) (fun _ _ _ => rfl)
    (fun t => by dsimp only [dats]; unfold Dat.blockOf iblk; rfl) t d).trans
    (by unfold Dat.fetched Dat.blockOf iblk; dsimp only [dats]; rfl)
theorem before_w10 (c : Dev nD) (t : Fin cfg0.N) (d) : (dats m 0 c).before 10 t d = iblk m c 10 t :=
  ((dats m 0 c).before_in_eq_fetched 10 rfl (fun _ => rfl) (fun _ _ _ => rfl)
    (fun t => by dsimp only [dats]; unfold Dat.blockOf iblk; rfl) t d).trans
    (by unfold Dat.fetched Dat.blockOf iblk; dsimp only [dats]; rfl)
theorem before_w11 (c : Dev nD) (t : Fin cfg0.N) (d) : (dats m 0 c).before 11 t d = iblk m c 11 t :=
  ((dats m 0 c).before_in_eq_fetched 11 rfl (fun _ => rfl) (fun _ _ _ => rfl)
    (fun t => by dsimp only [dats]; unfold Dat.blockOf iblk; rfl) t d).trans
    (by unfold Dat.fetched Dat.blockOf iblk; dsimp only [dats]; rfl)
theorem before_w12 (c : Dev nD) (t : Fin cfg0.N) (d) : (dats m 0 c).before 12 t d = iblk m c 12 t :=
  ((dats m 0 c).before_in_eq_fetched 12 rfl (fun _ => rfl) (fun _ _ _ => rfl)
    (fun t => by dsimp only [dats]; unfold Dat.blockOf iblk; rfl) t d).trans
    (by unfold Dat.fetched Dat.blockOf iblk; dsimp only [dats]; rfl)

/-- The result's window is idle nowhere on the grid: at every point one of the two branches stores into it. -/
theorem idle13 : ∀ i : grid0.Coords, cfg0.idle 13 i = false :=
  (by decide +kernel : ∀ i : grid0.Coords, idle0 13 i = false)

/-- So what the body obligation asks of the result's staging buffer after a point is what the proof data name. -/
theorem leaves13 (c : Dev nD) (t : Fin cfg0.N) :
    (dats m 0 c).leavesExact 13 t
      = owns (c : Thread nD τ) ((cfg0.win 13).stage (cfg0.slots t 13)) fullShare ((dats m 0 c).after 13 t) := by
  unfold Dat.leavesExact; rw [idle13 (cfg0.grid.coords t)]

/-- At the first point the result's staging buffer holds anything. -/
theorem before_out_first (c : Dev nD) (t : Fin cfg0.N) (h0 : t.val = 0) (d) : (dats m 0 c).before 13 t d = d :=
  Dat.before_out_reset _ 13 rfl t (.inl h0) d

/-- At a later point it holds what the body left at the point before: it is not written back between. -/
theorem before_out_later (c : Dev nD) (t : Fin cfg0.N) (h0 : t.val ≠ 0) (d) :
    (dats m 0 c).before 13 t d = acc m c (t.val - 1) (Nat.lt_of_le_of_lt (Nat.sub_le _ _) t.isLt) := by
  have hN : t.val < 4 := lt_of_lt_of_eq t.isLt (show cfg0.N = 4 from N_0)
  rw [Dat.before_out_kept _ 13 rfl t h0 (Bool.eq_false_iff.mpr fun h => by have := (flush0_13 _).mp h; dsimp only at this; omega)
    idle13 (fun _ _ => rfl)]
  dsimp only [dats]

end Cert.Kernel.Fr

end
-- ==== Proof.Kernel.Body.lean ====
/-
  The body obligation. At a grid point the body is handed each input window's staging buffer at the window's block and
  the result's at what the point before left (at the first point: anything). At the first point the store branch runs
  and the buffer ends at the point's contribution; at a later point the accumulate branch runs and it ends at the
  running sum plus the contribution. The inputs' buffers come back as they were.
-/
import proofs.«160544_g77111842832762_cont_sun_m_58_31_alg».proof.Proof.Kernel.Data

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs the pipeline calls the body with at a point -/

abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x2048 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x2048 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x2048 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x2048 .f32 := win0_13.stage (cfg0.slots t 13)
abbrev hs13 (t : Fin cfg0.N) : (ms13 t).IsWhole := hstage0_13 ((cfg0.slots t 13).cast nbuf0_13)

/-- What the body leaves in each input window: its block. -/
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = iblk m c 7 t := by dsimp only [dats]
theorem after_w8 (c : Dev nD) (t : Fin cfg0.N) : (dats m 0 c).after 8 t = iblk m c 8 t := by dsimp only [dats]
theorem after_w9 (c : Dev nD) (t : Fin cfg0.N) : (dats m 0 c).after 9 t = iblk m c 9 t := by dsimp only [dats]
theorem after_w10 (c : Dev nD) (t : Fin cfg0.N) : (dats m 0 c).after 10 t = iblk m c 10 t := by dsimp only [dats]
theorem after_w11 (c : Dev nD) (t : Fin cfg0.N) : (dats m 0 c).after 11 t = iblk m c 11 t := by dsimp only [dats]
theorem after_w12 (c : Dev nD) (t : Fin cfg0.N) : (dats m 0 c).after 12 t = iblk m c 12 t := by dsimp only [dats]

/-! ## The obligation at a point, the windows one by one -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ (dats m 0 c).leavesExact 13 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w0, before_w1, before_w2, before_w3, before_w4, before_w5, before_w6, before_w7, before_w8, before_w9,
    before_w10, before_w11, before_w12]
  rw [show (dats m 0 c).Φ t.succ = (dats m 0 c).Φ t.castSucc from rfl,
    show (dats m 0 c).owesAt () t.succ = (dats m 0 c).owesAt () t.castSucc from rfl,
    after_w0, after_w1, after_w2, after_w3, after_w4, after_w5, after_w6, after_w7, after_w8, after_w9, after_w10, after_w11,
    after_w12, leaves13, after_out]
  by_cases h0 : t.val = 0
  · rw [acc_zero m c t h0]
    unfold contribAt
    iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t)
      ((hcond1 t).mpr h0) (fun h => (hcond2 t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2 Set.univ _)
    isplitl [H0 H1 H2 H3 H4 H5 H6 H7 H8 H9 H10 H11 H12]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    iintro ⟨Hin, ⟨%f13, H13⟩⟩
    unfold inputs
    icases Hin with ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact readA _ _ _ _ _ _ _ _ _ _ _ _ _ _ _ _ _ _ _ _ _ _ _ _ _ _ _ _ _ _ _ _ _ _ _ _ _ _ _ _ _ _ _ _ _ _
  · rw [acc_pos m c t h0]
    simp only [before_out_later m c t h0]
    iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t)
      (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      (acc m c (t.val - 1) (Nat.lt_of_le_of_lt (Nat.sub_le _ _) t.isLt))).2 Set.univ _)
    isplitl [H0 H1 H2 H3 H4 H5 H6 H7 H8 H9 H10 H11 H12]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexact H13
    iintro ⟨Hin, ⟨%f13, H13⟩⟩
    unfold inputs
    icases Hin with ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact readB _ _ _ _ _ _ _ _ _ _ _ _ _ _ _ _ _ _ _ _ _ _ _ _ _ _ _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.Kernel.Run.lean ====
/-
  The run. @main is the region alone; the launch, the pipelined region and adequacy are the library's, in the form for
  a kernel with no semaphore of its own whose input windows may share arrays. What is this kernel's: how the five
  buffers behind the fourteen windows' arrays, each whole at the full share when the region is entered, make the
  windows' holdings — x's and the result's as they are, each weight's full share cut in halves and the halves in
  halves, a quarter to each of the four windows that read it —, the body obligation, and that there is nothing else:
  no scratch, no other unscoped buffer. The run ends with every window's array at what the proof data compute: the
  inputs' as launched, the result's overwritten by the last point's write-back.
-/
import proofs.«160544_g77111842832762_cont_sun_m_58_31_alg».proof.Proof.Kernel.Body
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry: five buffers, fourteen holdings -/

/-- The buffers behind the windows' arrays, one by one. -/
theorem arrBufs_chain (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0)
        ∗ (((c.tc : Thread nD τ).loc main_arg1) ↦{fullShare} V m c main_arg1)
        ∗ (((c.tc : Thread nD τ).loc main_arg2) ↦{fullShare} V m c main_arg2)
        ∗ (((c.tc : Thread nD τ).loc main_arg3) ↦{fullShare} V m c main_arg3)
        ∗ (((c.tc : Thread nD τ).loc main_v0) ↦{fullShare} V m c main_v0)) := by
  unfold Pipeline.arrBufs
  rw [bigSep_eq_bigSepL_of_eq [main_arg0, main_arg1, main_arg2, main_arg3, main_v0] (by decide) (by decide)]
  rfl

/-- The windows' holdings, one by one: each array whole, at the window's share. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare} G 0)
      ∗ (((c.tc : Thread nD τ).loc main_arg1) ↦{fullShare.left.left} G 1) ∗ (((c.tc : Thread nD τ).loc main_arg1) ↦{fullShare.left.right} G 2)
      ∗ (((c.tc : Thread nD τ).loc main_arg1) ↦{fullShare.right.left} G 3) ∗ (((c.tc : Thread nD τ).loc main_arg1) ↦{fullShare.right.right} G 4)
      ∗ (((c.tc : Thread nD τ).loc main_arg2) ↦{fullShare.left.left} G 5) ∗ (((c.tc : Thread nD τ).loc main_arg2) ↦{fullShare.left.right} G 6)
      ∗ (((c.tc : Thread nD τ).loc main_arg2) ↦{fullShare.right.left} G 7) ∗ (((c.tc : Thread nD τ).loc main_arg2) ↦{fullShare.right.right} G 8)
      ∗ (((c.tc : Thread nD τ).loc main_arg3) ↦{fullShare.left.left} G 9) ∗ (((c.tc : Thread nD τ).loc main_arg3) ↦{fullShare.left.right} G 10)
      ∗ (((c.tc : Thread nD τ).loc main_arg3) ↦{fullShare.right.left} G 11) ∗ (((c.tc : Thread nD τ).loc main_arg3) ↦{fullShare.right.right} G 12)
      ∗ (((c.tc : Thread nD τ).loc main_v0) ↦{fullShare} G 13)) := by
  unfold Dat.arrays
  rw [show (bigSep Finset.univ fun w : Fin cfg0.W =>
        ((cfg0.win w).arr.view.loc (c.tc : Thread nD τ) ↦[(cfg0.win w).arr.view.set]{(dats m 0 c).share w} G w : sProp 𝕄))
      = bigSep Finset.univ fun w : Fin cfg0.W =>
        (((c.tc : Thread nD τ).loc (Pipeline.arrRef spec0 w)) ↦{(dats m 0 c).share w} G w : sProp 𝕄)
      from bigSep_congr fun w _ => by rw [(arr_whole0 w).set_eq_univ]]
  rw [bigSep_W0]
  rfl

/-- A buffer whole at the full share is four holdings of it at the quarters. -/
theorem quarters (ℓ : Loc nD τ sig) (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  icases (pointsTo_share (PosShare.mem_left_op_right fullShare)).1 $$ H with ⟨Hl, Hr⟩
  icases (pointsTo_share (PosShare.mem_left_op_right fullShare.left)).1 $$ Hl with ⟨Hll, Hlr⟩
  icases (pointsTo_share (PosShare.mem_left_op_right fullShare.right)).1 $$ Hr with ⟨Hrl, Hrr⟩
  isplitl [Hll]; · iexact Hll
  isplitl [Hlr]; · iexact Hlr
  isplitl [Hrl]; · iexact Hrl
  iexact Hrr

/-- The region's entry: the five buffers deal the fourteen windows their arrays. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_chain]
  iintro ⟨H0, H1, H2, H3, H4⟩
  icases (quarters (ℓ := (c.tc : Thread nD τ).loc main_arg1) (V m c main_arg1)) $$ H1 with ⟨H1a, H1b, H1c, H1d⟩
  icases (quarters (ℓ := (c.tc : Thread nD τ).loc main_arg2) (V m c main_arg2)) $$ H2 with ⟨H2a, H2b, H2c, H2d⟩
  icases (quarters (ℓ := (c.tc : Thread nD τ).loc main_arg3) (V m c main_arg3)) $$ H3 with ⟨H3a, H3b, H3c, H3d⟩
  isplitl [H0]; · iexact H0
  isplitl [H1a]; · iexact H1a
  isplitl [H1b]; · iexact H1b
  isplitl [H1c]; · iexact H1c
  isplitl [H1d]; · iexact H1d
  isplitl [H2a]; · iexact H2a
  isplitl [H2b]; · iexact H2b
  isplitl [H2c]; · iexact H2c
  isplitl [H2d]; · iexact H2d
  isplitl [H3a]; · iexact H3a
  isplitl [H3b]; · iexact H3b
  isplitl [H3c]; · iexact H3c
  isplitl [H3d]; · iexact H3d
  iexact H4

/-! ## The run -/

/-- The rounds library's launch element: every staging cell's owner at round 0 and a duty token for every transfer
    the pipeline issues. -/
abbrev u₀ : UR sig nD τ := initOf (Pipeline.cells cfgs cellOf_inj) (Pipeline.launchToks cfgs cellOf_inj)

set_option backward.isDefEq.respectTransparency.types false in
/-- At the compiled mesh, for any float values, from any memory with zero counters: every weakly fair execution of @main
    on the TensorCores terminates, and every final state has each window's array at what the proof data compute. -/
theorem run_main : θ_run defs (onTc (τ := τ) (main (F := F))) (s₀ m ρ) (fun r => ∀ (c : Dev nD) (w : Fin cfg0.W),
    r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := u₀) (hu₀ := Entails.of_eq (ownU_emb₁ _))
    (V := V m) (hmain := hmain m Variants.none) (hsplit := hsplit m)
    (X := fun _ => iprop(emp)) (Y := fun _ => iprop(emp)) (Z := fun _ => iprop(emp))
    (hX := fun c => by rw [unscopedRest0_eq]; iintro -; isplitr <;> iempintro)
    (hin := fun c => by rw [scopedRest0_eq]; show _ ⊢ (iprop(emp) : sProp 𝕄); iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

end Cert.Kernel.Fr

end
-- ==== Proof.Kernel.Frame.lean ====
/-
  The frame, and the result array after the run.

  The inputs' arrays are never written (an input window writes nothing back), so they end as launched: the frame
  claim. The result's window is written back once, after the last point, and its one block is the whole array at
  offset zero: so the result array ends holding what the body left in the staging buffer at the last point, the
  running sum over all four points.
-/
import proofs.«160544_g77111842832762_cont_sun_m_58_31_alg».proof.Proof.Kernel.Run

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: every weakly fair execution terminates, nothing faults, the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 0).trans (((dats m 0 c).arrAt_in 0 rfl _).trans (A_eq m c 0)),
     (h c 1).trans (((dats m 0 c).arrAt_in 1 rfl _).trans (A_eq m c 1)),
     (h c 5).trans (((dats m 0 c).arrAt_in 5 rfl _).trans (A_eq m c 5)),
     (h c 9).trans (((dats m 0 c).arrAt_in 9 rfl _).trans (A_eq m c 9))⟩) (run_main m ρ)

/-! ## The result array -/

/-- The last grid point. -/
def tLast : Fin cfg0.N := ⟨3, by show 3 < grid0.N; rw [N_0]; decide⟩

/-- The result's block index is (0, 0) at every point: its one block is the whole array. -/
theorem idx_out : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- Read through the result window's block, an array is itself. -/
theorem read_out_blk (t : Fin cfg0.N) (G : S32x2048.Idx → Elt F .f32) :
    ((cfg0.win 13).blk t).view.read (Elt F) G = G := by
  funext j
  show G (((cfg0.win 13).blk t).view.emb j) = G j
  refine congrArg G (funext fun a => Fin.ext ?_)
  obtain ⟨e0, e1⟩ := idx_out t
  match a with
  | ⟨0, _⟩ => show win0_13.index t (0 : Fin 2) * 32 + 1 * (j 0).val = (j 0).val; omega
  | ⟨1, _⟩ => show win0_13.index t (1 : Fin 2) * 2048 + 1 * (j 1).val = (j 1).val; omega

/-- The one write-back writes the running sum after the last point. -/
theorem flushed_out (c : Dev nD) (t : Fin cfg0.N) (hf : (cfg0.win 13).flush t = true) :
    (dats m 0 c).flushed 13 t = ((cfg0.win 13).blk t).view.read (Elt F) (acc m c tLast.val tLast.isLt) := by
  have h3 : t.val % 4 = 3 := (flush0_13 t).mp hf
  have hN : t.val < 4 := lt_of_lt_of_eq t.isLt (show cfg0.N = 4 from N_0)
  obtain rfl : t = tLast := Fin.ext (by show t.val = 3; omega)
  rw [read_out_blk]
  show (cfg0.win 13).cut (grid0.coords tLast) ((dats m 0 c).after 13 tLast) = _
  rw [after_out]
  rfl

/-- Every index of the result array is in the written-back block. -/
theorem cover_out (i : S32x2048.Idx) : ∃ t : Fin cfg0.N, (cfg0.win 13).flush t = true ∧ i ∈ ((cfg0.win 13).blk t).view.set := by
  refine ⟨tLast, (flush0_13 tLast).mpr rfl, ?_⟩
  show i ∈ ((View.whole main_v0).slice (win0_13.rect tLast)).set
  rw [View.set_slice_whole, Rect.mem_set_unit]
  obtain ⟨e0, e1⟩ := idx_out tLast
  intro a
  match a with
  | ⟨0, _⟩ =>
    show win0_13.index tLast (0 : Fin 2) * 32 ≤ (i 0).val ∧ (i 0).val < win0_13.index tLast (0 : Fin 2) * 32 + 32
    have hi : (i 0).val < 32 := (i 0).isLt
    omega
  | ⟨1, _⟩ =>
    show win0_13.index tLast (1 : Fin 2) * 2048 ≤ (i 1).val ∧ (i 1).val < win0_13.index tLast (1 : Fin 2) * 2048 + 2048
    have hi : (i 1).val < 2048 := (i 1).isLt
    omega

/-- THE RESULT ARRAY after the run: the running sum after the last point. -/
theorem final_out (c : Dev nD) : (dats m 0 c).arrAt 13 cfg0.N = acc m c tLast.val tLast.isLt :=
  (dats m 0 c).arrAt_eq_of_cover 13 _ (fun t hf => flushed_out m c t hf) cover_out

/-- The run, read: the result array at the last running sum, the arguments unchanged. -/
theorem run_value : θ_run defs (onTc (τ := τ) (main (F := F))) ⟨m, fun _ => 0, ρ⟩ (fun r => ∀ c : Dev nD,
      r.2.mem ((c.tc : Thread nD τ).loc main_v0) = acc m c tLast.val tLast.isLt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 13).trans (final_out m c),
     (h c 0).trans (((dats m 0 c).arrAt_in 0 rfl _).trans (A_eq m c 0)),
     (h c 1).trans (((dats m 0 c).arrAt_in 1 rfl _).trans (A_eq m c 1)),
     (h c 5).trans (((dats m 0 c).arrAt_in 5 rfl _).trans (A_eq m c 5)),
     (h c 9).trans (((dats m 0 c).arrAt_in 9 rfl _).trans (A_eq m c 9))⟩) (run_main m ρ)

end Cert.Kernel.Fr

end
-- ==== Proof.KernelIdeal.Setup.lean ====
/-
  The fused SwiGLU kernel, one pallas_call on a grid of four points j = 0..3 over the intermediate axis. Fourteen
  windows: x whole (fetched once); the gate weight's block column j as four row blocks of 512 rows (windows 1-4,
  all on ONE array); the up weight's likewise (windows 5-8, one array); the down weight's rows 512 j .. 512 j + 511 as
  four blocks of 128 rows (windows 9-12, one array); and the result, whole, resident in its staging buffer over all
  four points and written back after the last. The body stores its contribution at j = 0 and adds it to what the
  buffer holds at j > 0.
  This module: what the region is entered with (the launch contents: @main is the region alone), the two branch
  conditions in closed form over the grid, the staging memrefs the pipeline calls the body with, and each window's
  block read off its array.
-/
import proofs.«160544_g77111842832762_cont_sun_m_58_31_alg».proof.Proof.Gen.KernelIdeal.Launch
import proofs.«160544_g77111842832762_cont_sun_m_58_31_alg».proof.Proof.Gen.KernelIdeal.Skeleton
import proofs.«160544_g77111842832762_cont_sun_m_58_31_alg».proof.Proof.Gen.KernelIdeal.Points
import Idealize.ShloMosaic.Lib.Pipeline.Frame
import Idealize.ShloMosaic.Lib.Pipeline.FrameBody
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- Core `c`'s TensorCore buffers when the region is entered: as launched. -/
abbrev V (c : Dev nD) (b : Ref sig .tc) : Buf (Elt F) ((c : Thread nD τ).loc b) := m ((c : Thread nD τ).loc b)

/-- @main is the region, then the return. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The two branches, decided over the grid -/

/-- The store branch (`j == 0`) is taken at the first point only, -/
theorem hcond1 : ∀ t : Fin cfg0.N, k0_cond1 (grid0.coords t) = 1#1 ↔ t.val = 0 :=
  (by decide +kernel : ∀ t : Fin grid0.N, k0_cond1 (grid0.coords t) = 1#1 ↔ t.val = 0)

/-- the accumulate branch (`j > 0`) at every other point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)

/-! ## A window's block, read off its array as the region finds it -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Fr

end
-- ==== Proof.KernelIdeal.Inputs.lean ====
/-
  What the body is handed of its thirteen input windows, as one assertion: x's staging buffer, the four row blocks of
  the gate weight's block column, the four of the up weight's, and the four 128-row blocks of the down weight's rows,
  each whole at the contents named.
-/
import proofs.«160544_g77111842832762_cont_sun_m_58_31_alg».proof.Proof.KernelIdeal.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The thirteen input staging buffers, whole, at the contents `x`, `g·` (gate), `u·` (up), `d·` (down). -/
def inputs (c : Dev nD) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (x : Vec F S32x2048 .f32) (g0 g1 g2 g3 u0 u1 u2 u3 : Vec F S512x512 .f32) (d0 d1 d2 d3 : Vec F S128x2048 .f32) : sProp 𝕄 :=
  iprop(owns (c : Thread nD τ) a1 fullShare x
    ∗ owns (c : Thread nD τ) a2 fullShare g0 ∗ owns (c : Thread nD τ) a3 fullShare g1 ∗ owns (c : Thread nD τ) a4 fullShare g2 ∗ owns (c : Thread nD τ) a5 fullShare g3
    ∗ owns (c : Thread nD τ) a6 fullShare u0 ∗ owns (c : Thread nD τ) a7 fullShare u1 ∗ owns (c : Thread nD τ) a8 fullShare u2 ∗ owns (c : Thread nD τ) a9 fullShare u3
    ∗ owns (c : Thread nD τ) a10 fullShare d0 ∗ owns (c : Thread nD τ) a11 fullShare d1 ∗ owns (c : Thread nD τ) a12 fullShare d2 ∗ owns (c : Thread nD τ) a13 fullShare d3)

end Cert.KernelIdeal.Fr

end
-- ==== Proof.KernelIdeal.RunA.lean ====
/-
  The body's run at the first grid point (the store branch taken, the accumulate branch not): from the thirteen
  input buffers at their contents and the result's staging buffer at anything, the body runs, hands the inputs back
  as they were, and leaves the result's buffer with the pieces its one store wrote. The pieces are the witness of a
  subtype the symbolic run finds.
-/
import proofs.«160544_g77111842832762_cont_sun_m_58_31_alg».proof.Proof.KernelIdeal.Inputs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the result's staging buffer at a point where `j == 0`, with the run. -/
noncomputable def runA (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : k0_cond1 i = 1#1) (hc2 : ¬k0_cond2 i = 1#1)
    (x : Vec F S32x2048 .f32) (g0 g1 g2 g3 u0 u1 u2 u3 : Vec F S512x512 .f32) (d0 d1 d2 d3 : Vec F S128x2048 .f32) :
    { L : List (View.Piece (Elt F) S32x2048 .f32) //
      ∀ (E : Set ℕ) (K : PUnit → sProp 𝕄),
        iprop(inputs c a1 h1 a2 h2 a3 h3 a4 h4 a5 h5 a6 h6 a7 h7 a8 h8 a9 h9 a10 h10 a11 h11 a12 h12 a13 h13 x g0 g1 g2 g3 u0 u1 u2 u3 d0 d1 d2 d3 ∗ (∃ d, owns (c : Thread nD τ) a14 fullShare d)
            ∗ (iprop(inputs c a1 h1 a2 h2 a3 h3 a4 h4 a5 h5 a6 h6 a7 h7 a8 h8 a9 h9 a10 h10 a11 h11 a12 h12 a13 h13 x g0 g1 g2 g3 u0 u1 u2 u3 d0 d1 d2 d3
                ∗ (∃ f, a14.view.loc (c : Thread nD τ) ↦[a14.view.set]{fullShare} a14.view.writes (Elt F) f L)) -∗ K ⟨⟩))
          ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14) K } := by
  refine ⟨?_, fun E K => ?run⟩
  case run =>
    simp only [cc0__mlp_kernel_eq_skeleton]; unfold cc0__mlp_kernel_skel
    unfold inputs owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13
    sl_exec (disch := first | exact hc1 | exact hc2)
    sl_step
    iapply Hk
    isplitr [H14]
    swap; · iexists _; iexact H14
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    iexists _; isplitr; · ipureintro; exact h13.read_unread _
    iexact H13

end Cert.KernelIdeal.Fr

end
-- ==== Proof.KernelIdeal.RunB.lean ====
/-
  The body's run at a later grid point (the store branch not taken, the accumulate branch taken): from the thirteen
  input buffers at their contents and the result's staging buffer at the running sum `acc`, the body runs, hands the
  inputs back as they were, and leaves the result's buffer with the pieces its one store wrote — the running sum
  plus this point's contribution. The pieces are the witness of a subtype the symbolic run finds.
-/
import proofs.«160544_g77111842832762_cont_sun_m_58_31_alg».proof.Proof.KernelIdeal.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's store leaves in the result's staging buffer at a point where `j > 0`, with the run. -/
noncomputable def runB (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : ¬k0_cond1 i = 1#1) (hc2 : k0_cond2 i = 1#1)
    (x : Vec F S32x2048 .f32) (g0 g1 g2 g3 u0 u1 u2 u3 : Vec F S512x512 .f32) (d0 d1 d2 d3 : Vec F S128x2048 .f32) (acc : Vec F S32x2048 .f32) :
    { L : List (View.Piece (Elt F) S32x2048 .f32) //
      ∀ (E : Set ℕ) (K : PUnit → sProp 𝕄),
        iprop(inputs c a1 h1 a2 h2 a3 h3 a4 h4 a5 h5 a6 h6 a7 h7 a8 h8 a9 h9 a10 h10 a11 h11 a12 h12 a13 h13 x g0 g1 g2 g3 u0 u1 u2 u3 d0 d1 d2 d3 ∗ owns (c : Thread nD τ) a14 fullShare acc
            ∗ (iprop(inputs c a1 h1 a2 h2 a3 h3 a4 h4 a5 h5 a6 h6 a7 h7 a8 h8 a9 h9 a10 h10 a11 h11 a12 h12 a13 h13 x g0 g1 g2 g3 u0 u1 u2 u3 d0 d1 d2 d3
                ∗ (∃ f, a14.view.loc (c : Thread nD τ) ↦[a14.view.set]{fullShare} a14.view.writes (Elt F) f L)) -∗ K ⟨⟩))
          ⊢ wp frame (wpE (defs₀ (F := F)) Variants.none c none) E (cc0__mlp_kernel i a1 h1 a2 h2 a3 h3 a4 h4 a5 h5 a6 h6 a7 h7 a8 h8 a9 h9 a10 h10 a11 h11 a12 h12 a13 h13 a14 h14) K } := by
  refine ⟨?_, fun E K => ?run⟩
  case run =>
    simp only [cc0__mlp_kernel_eq_skeleton]; unfold cc0__mlp_kernel_skel
    unfold inputs owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%f14, %hf14, H14⟩, Hk⟩
    obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8; obtain rfl := h9.eq_unread hf9; obtain rfl := h10.eq_unread hf10; obtain rfl := h11.eq_unread hf11; obtain rfl := h12.eq_unread hf12; obtain rfl := h13.eq_unread hf13; obtain rfl := h14.eq_unread hf14
    sl_exec (disch := first | exact hc1 | exact hc2)
    sl_step
    iapply Hk
    isplitr [H14]
    swap; · iexists _; iexact H14
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; · ipureintro; exact h9.read_unread _
      iexact H9
    isplitl [H10]
    · iexists _; isplitr; · ipureintro; exact h10.read_unread _
      iexact H10
    isplitl [H11]
    · iexists _; isplitr; · ipureintro; exact h11.read_unread _
      iexact H11
    isplitl [H12]
    · iexists _; isplitr; · ipureintro; exact h12.read_unread _
      iexact H12
    iexists _; isplitr; · ipureintro; exact h13.read_unread _
    iexact H13

end Cert.KernelIdeal.Fr

end
-- ==== Proof.KernelIdeal.Data.lean ====
/-
  What the body leaves, read back, and the proof data of the pipeline.

  The one store of a point covers the result's staging block; read back, it is the payload: at the first point the
  point's contribution (`contrib`), at a later point the running sum plus the contribution (`accum`). So the result's
  staging buffer after point n holds `acc n`, by recursion on the point: the buffer is resident (its block index never
  moves) and is written back only after the last point.

  The proof data: the arrays as the region finds them; each input window leaves its block in place; the result's window
  leaves `acc`; no invariant beside that (the kernel has no scratch and draws no random bits); nothing owed. Windows
  1-4 read ONE array (the gate weight), 5-8 one (the up weight), 9-12 one (the down weight): each of the four holds a
  quarter of its array's full share, the two halves of the two halves.
-/
import proofs.«160544_g77111842832762_cont_sun_m_58_31_alg».proof.Proof.KernelIdeal.RunB
import Idealize.ShloMosaic.Lib.Pipeline.Value
import Idealize.ShloMosaic.Lib.Ring

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The payloads -/

/-- A point's contribution to the result from the blocks it is handed: the down projection of the activation. -/
def contrib (x : Vec F S32x2048 .f32) (g0 g1 g2 g3 u0 u1 u2 u3 : Vec F S512x512 .f32) (d0 d1 d2 d3 : Vec F S128x2048 .f32) : FVec F S32x2048 .f32 :=
  k0_pay1 (k0_pay3 x g0 u0 g1 u1 g2 u2 g3 u3) (k0_pay4 x g0 u0 g1 u1 g2 u2 g3 u3) d0 d1 d2 d3

/-- The running sum after a later point: what the buffer held plus the point's contribution. -/
def accum (x : Vec F S32x2048 .f32) (g0 g1 g2 g3 u0 u1 u2 u3 : Vec F S512x512 .f32) (d0 d1 d2 d3 : Vec F S128x2048 .f32) (acc : Vec F S32x2048 .f32) : FVec F S32x2048 .f32 :=
  k0_pay2 (k0_pay3 x g0 u0 g1 u1 g2 u2 g3 u3) (k0_pay4 x g0 u0 g1 u1 g2 u2 g3 u3) d0 d1 d2 d3 acc

theorem hz2 : (![0, 0] : Fin 2 → Nat) = fun _ => 0 := by funext a; fin_cases a <;> rfl

/-! ## The store's pieces cover the block, and read back as the payload -/

theorem coverA (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : k0_cond1 i = 1#1) (hc2 : ¬k0_cond2 i = 1#1)
    (x : Vec F S32x2048 .f32) (g0 g1 g2 g3 u0 u1 u2 u3 : Vec F S512x512 .f32) (d0 d1 d2 d3 : Vec F S128x2048 .f32) (y : S32x2048.Idx) :
    ∃ pc ∈ (runA (F := F) c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3).1, y ∈ pc.1.set :=
  View.cover_of_tiledL (runA c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3).1 S32x2048.size (by sl_kernel_rfl) y

theorem readA (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : k0_cond1 i = 1#1) (hc2 : ¬k0_cond2 i = 1#1)
    (x : Vec F S32x2048 .f32) (g0 g1 g2 g3 u0 u1 u2 u3 : Vec F S512x512 .f32) (d0 d1 d2 d3 : Vec F S128x2048 .f32) (f : a14.view.ty.Contents (Elt F)) :
    a14.view.read (Elt F) (a14.view.writes (Elt F) f (runA (F := F) c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3).1)
      = contrib x g0 g1 g2 g3 u0 u1 u2 u3 d0 d1 d2 d3 := by
  rw [View.read_writes_eq_canon _ _ _ (coverA c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3)]
  unfold runA contrib
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread,
    View.ld_unit_zero (S := S32x2048) hz2, View.ld_unit_zero (S := S512x512) hz2, View.ld_unit_zero (S := S128x2048) hz2]

theorem coverB (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : ¬k0_cond1 i = 1#1) (hc2 : k0_cond2 i = 1#1)
    (x : Vec F S32x2048 .f32) (g0 g1 g2 g3 u0 u1 u2 u3 : Vec F S512x512 .f32) (d0 d1 d2 d3 : Vec F S128x2048 .f32) (acc : Vec F S32x2048 .f32) (y : S32x2048.Idx) :
    ∃ pc ∈ (runB (F := F) c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3 acc).1, y ∈ pc.1.set :=
  View.cover_of_tiledL (runB c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3 acc).1 S32x2048.size (by sl_kernel_rfl) y

theorem readB (c : Dev nD) (i : grid0.Coords) (a1 : Memref sig .tc .vmem S32x2048 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole) (a7 : Memref sig .tc .vmem S512x512 .f32) (h7 : a7.IsWhole)
    (a8 : Memref sig .tc .vmem S512x512 .f32) (h8 : a8.IsWhole) (a9 : Memref sig .tc .vmem S512x512 .f32) (h9 : a9.IsWhole)
    (a10 : Memref sig .tc .vmem S128x2048 .f32) (h10 : a10.IsWhole) (a11 : Memref sig .tc .vmem S128x2048 .f32) (h11 : a11.IsWhole)
    (a12 : Memref sig .tc .vmem S128x2048 .f32) (h12 : a12.IsWhole) (a13 : Memref sig .tc .vmem S128x2048 .f32) (h13 : a13.IsWhole)
    (a14 : Memref sig .tc .vmem S32x2048 .f32) (h14 : a14.IsWhole)
    (hc1 : ¬k0_cond1 i = 1#1) (hc2 : k0_cond2 i = 1#1)
    (x : Vec F S32x2048 .f32) (g0 g1 g2 g3 u0 u1 u2 u3 : Vec F S512x512 .f32) (d0 d1 d2 d3 : Vec F S128x2048 .f32) (acc : Vec F S32x2048 .f32) (f : a14.view.ty.Contents (Elt F)) :
    a14.view.read (Elt F) (a14.view.writes (Elt F) f (runB (F := F) c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3 acc).1)
      = accum x g0 g1 g2 g3 u0 u1 u2 u3 d0 d1 d2 d3 acc := by
  rw [View.read_writes_eq_canon _ _ _ (coverB c i a1 h1 a2 h2 a3 h3 a4 h4 a5 h5 a6 h6 a7 h7 a8 h8 a9 h9 a10 h10 a11 h11 a12 h12 a13 h13 a14 h14 hc1 hc2 x g0 g1 g2 g3 u0 u1 u2 u3 d0 d1 d2 d3 acc)]
  unfold runB accum
  dsimp only
  sl_unfold_words
  rw [View.canon_unit_zero hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread,
    View.ld_unit_zero (S := S32x2048) hz2, View.ld_unit_zero (S := S512x512) hz2, View.ld_unit_zero (S := S128x2048) hz2]

/-! ## The running sum, point by point -/

/-- Point `t`'s contribution, from the blocks of the arrays as the region finds them. -/
def contribAt (c : Dev nD) (t : Fin cfg0.N) : Vec F S32x2048 .f32 :=
  contrib (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- What the result's staging buffer holds after the body at point `n`. -/
def acc (c : Dev nD) : (n : ℕ) → n < cfg0.N → Vec F S32x2048 .f32
  | 0, hn => contribAt m c ⟨0, hn⟩
  | n + 1, hn => accum (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (acc c n (Nat.lt_of_succ_lt hn))

theorem acc_zero (c : Dev nD) (t : Fin cfg0.N) (h0 : t.val = 0) : acc m c t.val t.isLt = contribAt m c t := by
  obtain ⟨n, hn⟩ := t
  cases n with
  | zero => rfl
  | succ n => exact absurd h0 (Nat.succ_ne_zero n)

theorem acc_pos (c : Dev nD) (t : Fin cfg0.N) (h0 : t.val ≠ 0) :
    acc m c t.val t.isLt = accum (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (acc m c (t.val - 1) (Nat.lt_of_le_of_lt (Nat.sub_le _ _) t.isLt)) := by
  obtain ⟨n, hn⟩ := t
  cases n with
  | zero => exact absurd rfl h0
  | succ n => rfl

/-! ## The proof data -/

/-- The share each window holds of its array: x's and the result's whole; of each weight, a quarter per window. -/
def qOf : Fin 14 → PosShare TreeShare
  | ⟨0, _⟩ => fullShare
  | ⟨1, _⟩ => fullShare.left.left | ⟨2, _⟩ => fullShare.left.right | ⟨3, _⟩ => fullShare.right.left | ⟨4, _⟩ => fullShare.right.right
  | ⟨5, _⟩ => fullShare.left.left | ⟨6, _⟩ => fullShare.left.right | ⟨7, _⟩ => fullShare.right.left | ⟨8, _⟩ => fullShare.right.right
  | ⟨9, _⟩ => fullShare.left.left | ⟨10, _⟩ => fullShare.left.right | ⟨11, _⟩ => fullShare.right.left | ⟨12, _⟩ => fullShare.right.right
  | ⟨13, _⟩ => fullShare

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => acc m c t.val t.isLt
  Φ _ := iprop(emp)
  q := qOf
  owed _ := 0

theorem A_eq (c : Dev nD) (w : Fin cfg0.W) : (dats m 0 c).A w = V m c (Pipeline.arrRef spec0 w) := by
  dsimp only [dats]

theorem after_out (c : Dev nD) (t : Fin cfg0.N) : (dats m 0 c).after 13 t = acc m c t.val t.isLt := by dsimp only [dats]

/-- An input window's staging buffer holds its block at every point, fetched there or not: unfetched, the block index
    has not moved (the body leaves the block in place, the window is never idle and its blocks tile its array). -/
theorem before_w0 (c : Dev nD) (t : Fin cfg0.N) (d) : (dats m 0 c).before 0 t d = iblk m c 0 t :=
  ((dats m 0 c).before_in_eq_fetched 0 rfl (fun _ => rfl) (fun _ _ _ => rfl)
    (fun t => by dsimp only [dats]; unfold Dat.blockOf iblk; rfl) t d).trans
    (by unfold Dat.fetched Dat.blockOf iblk; dsimp only [dats]; rfl)
theorem before_w1 (c : Dev nD) (t : Fin cfg0.N) (d) : (dats m 0 c).before 1 t d = iblk m c 1 t :=
  ((dats m 0 c).before_in_eq_fetched 1 rfl (fun _ => rfl) (fun _ _ _ => rfl)
    (fun t => by dsimp only [dats]; unfold Dat.blockOf iblk; rfl) t d).trans
    (by unfold Dat.fetched Dat.blockOf iblk; dsimp only [dats]; rfl)
theorem before_w2 (c : Dev nD) (t : Fin cfg0.N) (d) : (dats m 0 c).before 2 t d = iblk m c 2 t :=
  ((dats m 0 c).before_in_eq_fetched 2 rfl (fun _ => rfl) (fun _ _ _ => rfl)
    (fun t => by dsimp only [dats]; unfold Dat.blockOf iblk; rfl) t d).trans
    (by unfold Dat.fetched Dat.blockOf iblk; dsimp only [dats]; rfl)
theorem before_w3 (c : Dev nD) (t : Fin cfg0.N) (d) : (dats m 0 c).before 3 t d = iblk m c 3 t :=
  ((dats m 0 c).before_in_eq_fetched 3 rfl (fun _ => rfl) (fun _ _ _ => rfl)
    (fun t => by dsimp only [dats]; unfold Dat.blockOf iblk; rfl) t d).trans
    (by unfold Dat.fetched Dat.blockOf iblk; dsimp only [dats]; rfl)
theorem before_w4 (c : Dev nD) (t : Fin cfg0.N) (d) : (dats m 0 c).before 4 t d = iblk m c 4 t :=
  ((dats m 0 c).before_in_eq_fetched 4 rfl (fun _ => rfl) (fun _ _ _ => rfl)
    (fun t => by dsimp only [dats]; unfold Dat.blockOf iblk; rfl) t d).trans
    (by unfold Dat.fetched Dat.blockOf iblk; dsimp only [dats]; rfl)
theorem before_w5 (c : Dev nD) (t : Fin cfg0.N) (d) : (dats m 0 c).before 5 t d = iblk m c 5 t :=
  ((dats m 0 c).before_in_eq_fetched 5 rfl (fun _ => rfl) (fun _ _ _ => rfl)
    (fun t => by dsimp only [dats]; unfold Dat.blockOf iblk; rfl) t d).trans
    (by unfold Dat.fetched Dat.blockOf iblk; dsimp only [dats]; rfl)
theorem before_w6 (c : Dev nD) (t : Fin cfg0.N) (d) : (dats m 0 c).before 6 t d = iblk m c 6 t :=
  ((dats m 0 c).before_in_eq_fetched 6 rfl (fun _ => rfl) (fun _ _ _ => rfl)
    (fun t => by dsimp only [dats]; unfold Dat.blockOf iblk; rfl) t d).trans
    (by unfold Dat.fetched Dat.blockOf iblk; dsimp only [dats]; rfl)
theorem before_w7 (c : Dev nD) (t : Fin cfg0.N) (d) : (dats m 0 c).before 7 t d = iblk m c 7 t :=
  ((dats m 0 c).before_in_eq_fetched 7 rfl (fun _ => rfl) (fun _ _ _ => rfl)
    (fun t => by dsimp only [dats]; unfold Dat.blockOf iblk; rfl) t d).trans
    (by unfold Dat.fetched Dat.blockOf iblk; dsimp only [dats]; rfl)
theorem before_w8 (c : Dev nD) (t : Fin cfg0.N) (d) : (dats m 0 c).before 8 t d = iblk m c 8 t :=
  ((dats m 0 c).before_in_eq_fetched 8 rfl (fun _ => rfl) (fun _ _ _ => rfl)
    (fun t => by dsimp only [dats]; unfold Dat.blockOf iblk; rfl) t d).trans
    (by unfold Dat.fetched Dat.blockOf iblk; dsimp only [dats]; rfl)
theorem before_w9 (c : Dev nD) (t : Fin cfg0.N) (d) : (dats m 0 c).before 9 t d = iblk m c 9 t :=
  ((dats m 0 c).before_in_eq_fetched 9 rfl (fun _ => rfl) (fun _ _ _ => rfl)
    (fun t => by dsimp only [dats]; unfold Dat.blockOf iblk; rfl) t d).trans
    (by unfold Dat.fetched Dat.blockOf iblk; dsimp only [dats]; rfl)
theorem before_w10 (c : Dev nD) (t : Fin cfg0.N) (d) : (dats m 0 c).before 10 t d = iblk m c 10 t :=
  ((dats m 0 c).before_in_eq_fetched 10 rfl (fun _ => rfl) (fun _ _ _ => rfl)
    (fun t => by dsimp only [dats]; unfold Dat.blockOf iblk; rfl) t d).trans
    (by unfold Dat.fetched Dat.blockOf iblk; dsimp only [dats]; rfl)
theorem before_w11 (c : Dev nD) (t : Fin cfg0.N) (d) : (dats m 0 c).before 11 t d = iblk m c 11 t :=
  ((dats m 0 c).before_in_eq_fetched 11 rfl (fun _ => rfl) (fun _ _ _ => rfl)
    (fun t => by dsimp only [dats]; unfold Dat.blockOf iblk; rfl) t d).trans
    (by unfold Dat.fetched Dat.blockOf iblk; dsimp only [dats]; rfl)
theorem before_w12 (c : Dev nD) (t : Fin cfg0.N) (d) : (dats m 0 c).before 12 t d = iblk m c 12 t :=
  ((dats m 0 c).before_in_eq_fetched 12 rfl (fun _ => rfl) (fun _ _ _ => rfl)
    (fun t => by dsimp only [dats]; unfold Dat.blockOf iblk; rfl) t d).trans
    (by unfold Dat.fetched Dat.blockOf iblk; dsimp only [dats]; rfl)

/-- The result's window is idle nowhere on the grid: at every point one of the two branches stores into it. -/
theorem idle13 : ∀ i : grid0.Coords, cfg0.idle 13 i = false :=
  (by decide +kernel : ∀ i : grid0.Coords, idle0 13 i = false)

/-- So what the body obligation asks of the result's staging buffer after a point is what the proof data name. -/
theorem leaves13 (c : Dev nD) (t : Fin cfg0.N) :
    (dats m 0 c).leavesExact 13 t
      = owns (c : Thread nD τ) ((cfg0.win 13).stage (cfg0.slots t 13)) fullShare ((dats m 0 c).after 13 t) := by
  unfold Dat.leavesExact; rw [idle13 (cfg0.grid.coords t)]

/-- At the first point the result's staging buffer holds anything. -/
theorem before_out_first (c : Dev nD) (t : Fin cfg0.N) (h0 : t.val = 0) (d) : (dats m 0 c).before 13 t d = d :=
  Dat.before_out_reset _ 13 rfl t (.inl h0) d

/-- At a later point it holds what the body left at the point before: it is not written back between. -/
theorem before_out_later (c : Dev nD) (t : Fin cfg0.N) (h0 : t.val ≠ 0) (d) :
    (dats m 0 c).before 13 t d = acc m c (t.val - 1) (Nat.lt_of_le_of_lt (Nat.sub_le _ _) t.isLt) := by
  have hN : t.val < 4 := lt_of_lt_of_eq t.isLt (show cfg0.N = 4 from N_0)
  rw [Dat.before_out_kept _ 13 rfl t h0 (Bool.eq_false_iff.mpr fun h => by have := (flush0_13 _).mp h; dsimp only at this; omega)
    idle13 (fun _ _ => rfl)]
  dsimp only [dats]

end Cert.KernelIdeal.Fr

end
-- ==== Proof.KernelIdeal.Body.lean ====
/-
  The body obligation. At a grid point the body is handed each input window's staging buffer at the window's block and
  the result's at what the point before left (at the first point: anything). At the first point the store branch runs
  and the buffer ends at the point's contribution; at a later point the accumulate branch runs and it ends at the
  running sum plus the contribution. The inputs' buffers come back as they were.
-/
import proofs.«160544_g77111842832762_cont_sun_m_58_31_alg».proof.Proof.KernelIdeal.Data

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs the pipeline calls the body with at a point -/

abbrev ms0 (t : Fin cfg0.N) : Memref sig .tc .vmem S32x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x512 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x512 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x512 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x2048 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x2048 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x2048 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S32x2048 .f32 := win0_13.stage (cfg0.slots t 13)
abbrev hs13 (t : Fin cfg0.N) : (ms13 t).IsWhole := hstage0_13 ((cfg0.slots t 13).cast nbuf0_13)

/-- What the body leaves in each input window: its block. -/
theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem after_w3 (c : Dev nD) (t : Fin cfg0.N) : (dats m 0 c).after 3 t = iblk m c 3 t := by dsimp only [dats]
theorem after_w4 (c : Dev nD) (t : Fin cfg0.N) : (dats m 0 c).after 4 t = iblk m c 4 t := by dsimp only [dats]
theorem after_w5 (c : Dev nD) (t : Fin cfg0.N) : (dats m 0 c).after 5 t = iblk m c 5 t := by dsimp only [dats]
theorem after_w6 (c : Dev nD) (t : Fin cfg0.N) : (dats m 0 c).after 6 t = iblk m c 6 t := by dsimp only [dats]
theorem after_w7 (c : Dev nD) (t : Fin cfg0.N) : (dats m 0 c).after 7 t = iblk m c 7 t := by dsimp only [dats]
theorem after_w8 (c : Dev nD) (t : Fin cfg0.N) : (dats m 0 c).after 8 t = iblk m c 8 t := by dsimp only [dats]
theorem after_w9 (c : Dev nD) (t : Fin cfg0.N) : (dats m 0 c).after 9 t = iblk m c 9 t := by dsimp only [dats]
theorem after_w10 (c : Dev nD) (t : Fin cfg0.N) : (dats m 0 c).after 10 t = iblk m c 10 t := by dsimp only [dats]
theorem after_w11 (c : Dev nD) (t : Fin cfg0.N) : (dats m 0 c).after 11 t = iblk m c 11 t := by dsimp only [dats]
theorem after_w12 (c : Dev nD) (t : Fin cfg0.N) : (dats m 0 c).after 12 t = iblk m c 12 t := by dsimp only [dats]

/-! ## The obligation at a point, the windows one by one -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ (dats m 0 c).leavesExact 13 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_w0, before_w1, before_w2, before_w3, before_w4, before_w5, before_w6, before_w7, before_w8, before_w9,
    before_w10, before_w11, before_w12]
  rw [show (dats m 0 c).Φ t.succ = (dats m 0 c).Φ t.castSucc from rfl,
    show (dats m 0 c).owesAt () t.succ = (dats m 0 c).owesAt () t.castSucc from rfl,
    after_w0, after_w1, after_w2, after_w3, after_w4, after_w5, after_w6, after_w7, after_w8, after_w9, after_w10, after_w11,
    after_w12, leaves13, after_out]
  by_cases h0 : t.val = 0
  · rw [acc_zero m c t h0]
    unfold contribAt
    iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t)
      ((hcond1 t).mpr h0) (fun h => (hcond2 t).mp h h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2 Set.univ _)
    isplitl [H0 H1 H2 H3 H4 H5 H6 H7 H8 H9 H10 H11 H12]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexists _; iexact H13
    iintro ⟨Hin, ⟨%f13, H13⟩⟩
    unfold inputs
    icases Hin with ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact readA _ _ _ _ _ _ _ _ _ _ _ _ _ _ _ _ _ _ _ _ _ _ _ _ _ _ _ _ _ _ _ _ _ _ _ _ _ _ _ _ _ _ _ _ _ _
  · rw [acc_pos m c t h0]
    simp only [before_out_later m c t h0]
    iintro ⟨HΦ, Ho, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t)
      (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      (acc m c (t.val - 1) (Nat.lt_of_le_of_lt (Nat.sub_le _ _) t.isLt))).2 Set.univ _)
    isplitl [H0 H1 H2 H3 H4 H5 H6 H7 H8 H9 H10 H11 H12]
    · unfold inputs
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [H13]; · iexact H13
    iintro ⟨Hin, ⟨%f13, H13⟩⟩
    unfold inputs
    icases Hin with ⟨H0, H1, H2, H3, H4, H5, H6, H7, H8, H9, H10, H11, H12⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    unfold owns; iexists _; isplitr
    swap; · iexact H13
    ipureintro; exact readB _ _ _ _ _ _ _ _ _ _ _ _ _ _ _ _ _ _ _ _ _ _ _ _ _ _ _ _ _ _ _ _ _ _ _ _ _ _ _ _ _ _ _ _ _ _ _

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KernelIdeal.Run.lean ====
/-
  The run. @main is the region alone; the launch, the pipelined region and adequacy are the library's, in the form for
  a kernel with no semaphore of its own whose input windows may share arrays. What is this kernel's: how the five
  buffers behind the fourteen windows' arrays, each whole at the full share when the region is entered, make the
  windows' holdings — x's and the result's as they are, each weight's full share cut in halves and the halves in
  halves, a quarter to each of the four windows that read it —, the body obligation, and that there is nothing else:
  no scratch, no other unscoped buffer. The run ends with every window's array at what the proof data compute: the
  inputs' as launched, the result's overwritten by the last point's write-back.
-/
import proofs.«160544_g77111842832762_cont_sun_m_58_31_alg».proof.Proof.KernelIdeal.Body
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at entry: five buffers, fourteen holdings -/

/-- The buffers behind the windows' arrays, one by one. -/
theorem arrBufs_chain (c : Dev nD) :
    (Pipeline.arrBufs (Ix := Unit) (Name := ℕ) (U := UR sig nD τ) (Lvl := ℕ) spec0 c (V m c) : sProp 𝕄)
      = iprop((((c.tc : Thread nD τ).loc main_arg0) ↦{fullShare} V m c main_arg0)
        ∗ (((c.tc : Thread nD τ).loc main_arg1) ↦{fullShare} V m c main_arg1)
        ∗ (((c.tc : Thread nD τ).loc main_arg2) ↦{fullShare} V m c main_arg2)
        ∗ (((c.tc : Thread nD τ).loc main_arg3) ↦{fullShare} V m c main_arg3)
        ∗ (((c.tc : Thread nD τ).loc main_v0) ↦{fullShare} V m c main_v0)) := by
  unfold Pipeline.arrBufs
  rw [bigSep_eq_bigSepL_of_eq [main_arg0, main_arg1, main_arg2, main_arg3, main_v0] (by decide) (by decide)]
  rfl

/-- The windows' holdings, one by one: each array whole, at the window's share. -/
theorem arrays_chain (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare} G 0)
      ∗ (((c.tc : Thread nD τ).loc main_arg1) ↦{fullShare.left.left} G 1) ∗ (((c.tc : Thread nD τ).loc main_arg1) ↦{fullShare.left.right} G 2)
      ∗ (((c.tc : Thread nD τ).loc main_arg1) ↦{fullShare.right.left} G 3) ∗ (((c.tc : Thread nD τ).loc main_arg1) ↦{fullShare.right.right} G 4)
      ∗ (((c.tc : Thread nD τ).loc main_arg2) ↦{fullShare.left.left} G 5) ∗ (((c.tc : Thread nD τ).loc main_arg2) ↦{fullShare.left.right} G 6)
      ∗ (((c.tc : Thread nD τ).loc main_arg2) ↦{fullShare.right.left} G 7) ∗ (((c.tc : Thread nD τ).loc main_arg2) ↦{fullShare.right.right} G 8)
      ∗ (((c.tc : Thread nD τ).loc main_arg3) ↦{fullShare.left.left} G 9) ∗ (((c.tc : Thread nD τ).loc main_arg3) ↦{fullShare.left.right} G 10)
      ∗ (((c.tc : Thread nD τ).loc main_arg3) ↦{fullShare.right.left} G 11) ∗ (((c.tc : Thread nD τ).loc main_arg3) ↦{fullShare.right.right} G 12)
      ∗ (((c.tc : Thread nD τ).loc main_v0) ↦{fullShare} G 13)) := by
  unfold Dat.arrays
  rw [show (bigSep Finset.univ fun w : Fin cfg0.W =>
        ((cfg0.win w).arr.view.loc (c.tc : Thread nD τ) ↦[(cfg0.win w).arr.view.set]{(dats m 0 c).share w} G w : sProp 𝕄))
      = bigSep Finset.univ fun w : Fin cfg0.W =>
        (((c.tc : Thread nD τ).loc (Pipeline.arrRef spec0 w)) ↦{(dats m 0 c).share w} G w : sProp 𝕄)
      from bigSep_congr fun w _ => by rw [(arr_whole0 w).set_eq_univ]]
  rw [bigSep_W0]
  rfl

/-- A buffer whole at the full share is four holdings of it at the quarters. -/
theorem quarters (ℓ : Loc nD τ sig) (f : Buf (Elt F) ℓ) :
    (ℓ ↦{fullShare} f : sProp 𝕄) ⊢ iprop((ℓ ↦{fullShare.left.left} f) ∗ (ℓ ↦{fullShare.left.right} f)
      ∗ (ℓ ↦{fullShare.right.left} f) ∗ (ℓ ↦{fullShare.right.right} f)) := by
  iintro H
  icases (pointsTo_share (PosShare.mem_left_op_right fullShare)).1 $$ H with ⟨Hl, Hr⟩
  icases (pointsTo_share (PosShare.mem_left_op_right fullShare.left)).1 $$ Hl with ⟨Hll, Hlr⟩
  icases (pointsTo_share (PosShare.mem_left_op_right fullShare.right)).1 $$ Hr with ⟨Hrl, Hrr⟩
  isplitl [Hll]; · iexact Hll
  isplitl [Hlr]; · iexact Hlr
  isplitl [Hrl]; · iexact Hrl
  iexact Hrr

/-- The region's entry: the five buffers deal the fourteen windows their arrays. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_chain, arrays_chain]
  iintro ⟨H0, H1, H2, H3, H4⟩
  icases (quarters (ℓ := (c.tc : Thread nD τ).loc main_arg1) (V m c main_arg1)) $$ H1 with ⟨H1a, H1b, H1c, H1d⟩
  icases (quarters (ℓ := (c.tc : Thread nD τ).loc main_arg2) (V m c main_arg2)) $$ H2 with ⟨H2a, H2b, H2c, H2d⟩
  icases (quarters (ℓ := (c.tc : Thread nD τ).loc main_arg3) (V m c main_arg3)) $$ H3 with ⟨H3a, H3b, H3c, H3d⟩
  isplitl [H0]; · iexact H0
  isplitl [H1a]; · iexact H1a
  isplitl [H1b]; · iexact H1b
  isplitl [H1c]; · iexact H1c
  isplitl [H1d]; · iexact H1d
  isplitl [H2a]; · iexact H2a
  isplitl [H2b]; · iexact H2b
  isplitl [H2c]; · iexact H2c
  isplitl [H2d]; · iexact H2d
  isplitl [H3a]; · iexact H3a
  isplitl [H3b]; · iexact H3b
  isplitl [H3c]; · iexact H3c
  isplitl [H3d]; · iexact H3d
  iexact H4

/-! ## The run -/

/-- The rounds library's launch element: every staging cell's owner at round 0 and a duty token for every transfer
    the pipeline issues. -/
abbrev u₀ : UR sig nD τ := initOf (Pipeline.cells cfgs cellOf_inj) (Pipeline.launchToks cfgs cellOf_inj)

set_option backward.isDefEq.respectTransparency.types false in
/-- At the compiled mesh, for any float values, from any memory with zero counters: every weakly fair execution of @main
    on the TensorCores terminates, and every final state has each window's array at what the proof data compute. -/
theorem run_main : θ_run defs (onTc (τ := τ) (main (F := F))) (s₀ m ρ) (fun r => ∀ (c : Dev nD) (w : Fin cfg0.W),
    r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := u₀) (hu₀ := Entails.of_eq (ownU_emb₁ _))
    (V := V m) (hmain := hmain m Variants.none) (hsplit := hsplit m)
    (X := fun _ => iprop(emp)) (Y := fun _ => iprop(emp)) (Z := fun _ => iprop(emp))
    (hX := fun c => by rw [unscopedRest0_eq]; iintro -; isplitr <;> iempintro)
    (hin := fun c => by rw [scopedRest0_eq]; show _ ⊢ (iprop(emp) : sProp 𝕄); iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

end Cert.KernelIdeal.Fr

end
-- ==== Proof.KernelIdeal.Frame.lean ====
/-
  The frame, and the result array after the run.

  The inputs' arrays are never written (an input window writes nothing back), so they end as launched: the frame
  claim. The result's window is written back once, after the last point, and its one block is the whole array at
  offset zero: so the result array ends holding what the body left in the staging buffer at the last point, the
  running sum over all four points.
-/
import proofs.«160544_g77111842832762_cont_sun_m_58_31_alg».proof.Proof.KernelIdeal.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME: every weakly fair execution terminates, nothing faults, the four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 0).trans (((dats m 0 c).arrAt_in 0 rfl _).trans (A_eq m c 0)),
     (h c 1).trans (((dats m 0 c).arrAt_in 1 rfl _).trans (A_eq m c 1)),
     (h c 5).trans (((dats m 0 c).arrAt_in 5 rfl _).trans (A_eq m c 5)),
     (h c 9).trans (((dats m 0 c).arrAt_in 9 rfl _).trans (A_eq m c 9))⟩) (run_main m ρ)

/-! ## The result array -/

/-- The last grid point. -/
def tLast : Fin cfg0.N := ⟨3, by show 3 < grid0.N; rw [N_0]; decide⟩

/-- The result's block index is (0, 0) at every point: its one block is the whole array. -/
theorem idx_out : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- Read through the result window's block, an array is itself. -/
theorem read_out_blk (t : Fin cfg0.N) (G : S32x2048.Idx → Elt F .f32) :
    ((cfg0.win 13).blk t).view.read (Elt F) G = G := by
  funext j
  show G (((cfg0.win 13).blk t).view.emb j) = G j
  refine congrArg G (funext fun a => Fin.ext ?_)
  obtain ⟨e0, e1⟩ := idx_out t
  match a with
  | ⟨0, _⟩ => show win0_13.index t (0 : Fin 2) * 32 + 1 * (j 0).val = (j 0).val; omega
  | ⟨1, _⟩ => show win0_13.index t (1 : Fin 2) * 2048 + 1 * (j 1).val = (j 1).val; omega

/-- The one write-back writes the running sum after the last point. -/
theorem flushed_out (c : Dev nD) (t : Fin cfg0.N) (hf : (cfg0.win 13).flush t = true) :
    (dats m 0 c).flushed 13 t = ((cfg0.win 13).blk t).view.read (Elt F) (acc m c tLast.val tLast.isLt) := by
  have h3 : t.val % 4 = 3 := (flush0_13 t).mp hf
  have hN : t.val < 4 := lt_of_lt_of_eq t.isLt (show cfg0.N = 4 from N_0)
  obtain rfl : t = tLast := Fin.ext (by show t.val = 3; omega)
  rw [read_out_blk]
  show (cfg0.win 13).cut (grid0.coords tLast) ((dats m 0 c).after 13 tLast) = _
  rw [after_out]
  rfl

/-- Every index of the result array is in the written-back block. -/
theorem cover_out (i : S32x2048.Idx) : ∃ t : Fin cfg0.N, (cfg0.win 13).flush t = true ∧ i ∈ ((cfg0.win 13).blk t).view.set := by
  refine ⟨tLast, (flush0_13 tLast).mpr rfl, ?_⟩
  show i ∈ ((View.whole main_v0).slice (win0_13.rect tLast)).set
  rw [View.set_slice_whole, Rect.mem_set_unit]
  obtain ⟨e0, e1⟩ := idx_out tLast
  intro a
  match a with
  | ⟨0, _⟩ =>
    show win0_13.index tLast (0 : Fin 2) * 32 ≤ (i 0).val ∧ (i 0).val < win0_13.index tLast (0 : Fin 2) * 32 + 32
    have hi : (i 0).val < 32 := (i 0).isLt
    omega
  | ⟨1, _⟩ =>
    show win0_13.index tLast (1 : Fin 2) * 2048 ≤ (i 1).val ∧ (i 1).val < win0_13.index tLast (1 : Fin 2) * 2048 + 2048
    have hi : (i 1).val < 2048 := (i 1).isLt
    omega

/-- THE RESULT ARRAY after the run: the running sum after the last point. -/
theorem final_out (c : Dev nD) : (dats m 0 c).arrAt 13 cfg0.N = acc m c tLast.val tLast.isLt :=
  (dats m 0 c).arrAt_eq_of_cover 13 _ (fun t hf => flushed_out m c t hf) cover_out

/-- The run, read: the result array at the last running sum, the arguments unchanged. -/
theorem run_value : θ_run defs (onTc (τ := τ) (main (F := F))) ⟨m, fun _ => 0, ρ⟩ (fun r => ∀ c : Dev nD,
      r.2.mem ((c.tc : Thread nD τ).loc main_v0) = acc m c tLast.val tLast.isLt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c 13).trans (final_out m c),
     (h c 0).trans (((dats m 0 c).arrAt_in 0 rfl _).trans (A_eq m c 0)),
     (h c 1).trans (((dats m 0 c).arrAt_in 1 rfl _).trans (A_eq m c 1)),
     (h c 5).trans (((dats m 0 c).arrAt_in 5 rfl _).trans (A_eq m c 5)),
     (h c 9).trans (((dats m 0 c).arrAt_in 9 rfl _).trans (A_eq m c 9))⟩) (run_main m ρ)

end Cert.KernelIdeal.Fr

end
-- ==== Proof.Spec.lean ====
/-
  The SwiGLU MLP as one function of its four arguments, and the kernel's arrangement of it.

  Reference: out[r, c] = Σ_k act[r, k] · Wd[k, c] over the 2048 intermediate columns k, where
  act[r, k] = g · logistic(g) · u with g = Σ_i x[r, i] · Wg[i, k] and u = Σ_i x[r, i] · Wu[i, k].

  Kernel: the intermediate axis is cut into four blocks of 512 columns (the grid's points t = 0..3). At point t the gate
  and up projections are each the sum, in the order ((q=0 + q=1) + q=2) + q=3, of four products of a 512-column slice of
  x with a 512×512 block of the weight; the activation is the same pointwise expression; the down projection is the sum,
  in the same order, of four products of a 128-column slice of the activation with a 128×2048 block of Wd; and the four
  points' contributions are added in the order ((t=0 + t=1) + t=2) + t=3. On the extended reals addition is commutative
  and associative, so regrouping a sum over 2048 = 4·512 (and 512 = 4·128) indices is an equality whatever the terms
  are: no finiteness is used.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev SX : Shape := ⟨2, ![32, 2048]⟩
abbrev SW : Shape := ⟨2, ![2048, 2048]⟩
abbrev SG : Shape := ⟨2, ![512, 512]⟩
abbrev SD : Shape := ⟨2, ![128, 2048]⟩

/-- SiLU(g) · u on the extended reals, in the order both programs multiply: (g · logistic g) · u. -/
def swiglu (g u : EReal) : EReal := g * Ideal.logistic g * u

/-! ## The reference's arrangement -/

/-- A projection: row r of x against column k of a weight. -/
def proj (X : SX.Idx → EReal) (W : SW.Idx → EReal) (r : Fin 32) (k : Fin 2048) : EReal :=
  ∑ i : Fin 2048, X (ix2 r i) * W (ix2 i k)

/-- The whole MLP, index by index. -/
def mlp (X : SX.Idx → EReal) (Wg Wu Wd : SW.Idx → EReal) : SX.Idx → EReal :=
  fun j => ∑ k : Fin 2048, swiglu (proj X Wg (j 0) k) (proj X Wu (j 0) k) * Wd (ix2 k (j 1))

/-! ## The kernel's arrangement, over the blocks a grid point is handed -/

/-- Row block q (rows 512 q ..) of block column t (columns 512 t ..) of a 2048×2048 weight. -/
def colBlk (W : SW.Idx → EReal) (q t : Fin 4) : SG.Idx → EReal :=
  fun y => W (ix2 (⟨512 * q.val + (y 0).val, by have h : (y 0).val < 512 := (y 0).isLt; have := q.isLt; omega⟩ : Fin 2048)
    (⟨512 * t.val + (y 1).val, by have h : (y 1).val < 512 := (y 1).isLt; have := t.isLt; omega⟩ : Fin 2048))

/-- The 128-row block number 4 t + q (rows 128 (4 t + q) ..) of a 2048×2048 weight, all columns. -/
def rowBlk (W : SW.Idx → EReal) (q t : Fin 4) : SD.Idx → EReal :=
  fun y => W (ix2 (⟨128 * (4 * t.val + q.val) + (y 0).val, by have h : (y 0).val < 128 := (y 0).isLt; have := q.isLt; have := t.isLt; omega⟩ : Fin 2048)
    (⟨(y 1).val, (y 1).isLt⟩ : Fin 2048))

/-- Columns 512 q .. of row r of x against column k of a 512×512 block. -/
def dot512 (X : SX.Idx → EReal) (q : Fin 4) (B : SG.Idx → EReal) (r : Fin 32) (k : Fin 512) : EReal :=
  ∑ i : Fin 512, X (ix2 r (⟨512 * q.val + i.val, by have := q.isLt; omega⟩ : Fin 2048)) * B (ix2 i k)

/-- A projection at a grid point: the four slices' products added in the kernel's order. -/
def projK (X : SX.Idx → EReal) (B0 B1 B2 B3 : SG.Idx → EReal) (r : Fin 32) (k : Fin 512) : EReal :=
  ((dot512 X 0 B0 r k + dot512 X 1 B1 r k) + dot512 X 2 B2 r k) + dot512 X 3 B3 r k

/-- The activation at a grid point. -/
def actK (X : SX.Idx → EReal) (g0 g1 g2 g3 u0 u1 u2 u3 : SG.Idx → EReal) (r : Fin 32) (k : Fin 512) : EReal :=
  swiglu (projK X g0 g1 g2 g3 r k) (projK X u0 u1 u2 u3 r k)

/-- Columns 128 q .. of the activation's row against a 128×2048 block of the down weight. -/
def dot128 (A : Fin 32 → Fin 512 → EReal) (q : Fin 4) (D : SD.Idx → EReal) (j : SX.Idx) : EReal :=
  ∑ k : Fin 128, A (j 0) (⟨128 * q.val + k.val, by have := q.isLt; omega⟩ : Fin 512) * D (ix2 k (j 1))

/-- A grid point's contribution to the result, from the blocks it is handed. -/
def contribK (X : SX.Idx → EReal) (g0 g1 g2 g3 u0 u1 u2 u3 : SG.Idx → EReal) (d0 d1 d2 d3 : SD.Idx → EReal) : SX.Idx → EReal :=
  fun j => ((dot128 (actK X g0 g1 g2 g3 u0 u1 u2 u3) 0 d0 j + dot128 (actK X g0 g1 g2 g3 u0 u1 u2 u3) 1 d1 j)
    + dot128 (actK X g0 g1 g2 g3 u0 u1 u2 u3) 2 d2 j) + dot128 (actK X g0 g1 g2 g3 u0 u1 u2 u3) 3 d3 j

/-- Grid point t's contribution, from the argument arrays. -/
def contribAt (X : SX.Idx → EReal) (Wg Wu Wd : SW.Idx → EReal) (t : Fin 4) : SX.Idx → EReal :=
  contribK X (colBlk Wg 0 t) (colBlk Wg 1 t) (colBlk Wg 2 t) (colBlk Wg 3 t)
    (colBlk Wu 0 t) (colBlk Wu 1 t) (colBlk Wu 2 t) (colBlk Wu 3 t)
    (rowBlk Wd 0 t) (rowBlk Wd 1 t) (rowBlk Wd 2 t) (rowBlk Wd 3 t)

/-! ## Regrouping a sum over four equal blocks -/

/-- A sum over 4·n indices is the double sum over (block, position in the block). -/
theorem sum_quarters {M : Type*} [AddCommMonoid M] (n : ℕ) (f : Fin (4 * n) → M) :
    ∑ k, f k = ∑ q : Fin 4, ∑ i : Fin n, f (finProdFinEquiv (q, i)) := by
  rw [← Equiv.sum_comp finProdFinEquiv f, Fintype.sum_prod_type]

/-- 2048 = 4·512: a sum over 2048 indices is the four blocks' sums, added in the order ((0 + 1) + 2) + 3. -/
theorem sum_2048 {M : Type*} [AddCommMonoid M] (f : Fin 2048 → M) :
    ∑ k, f k =
      ((∑ i : Fin 512, f ⟨512 * (0 : Fin 4).val + i.val, by have := (0 : Fin 4).isLt; omega⟩
        + ∑ i : Fin 512, f ⟨512 * (1 : Fin 4).val + i.val, by have := (1 : Fin 4).isLt; omega⟩)
        + ∑ i : Fin 512, f ⟨512 * (2 : Fin 4).val + i.val, by have := (2 : Fin 4).isLt; omega⟩)
        + ∑ i : Fin 512, f ⟨512 * (3 : Fin 4).val + i.val, by have := (3 : Fin 4).isLt; omega⟩ := by
  have e : ∀ (q : Fin 4) (i : Fin 512),
      (finProdFinEquiv (q, i) : Fin (4 * 512)) = (⟨512 * q.val + i.val, by have := q.isLt; omega⟩ : Fin 2048) :=
    fun q i => Fin.ext (by simp [finProdFinEquiv]; omega)
  have h := sum_quarters 512 f
  rw [h, Fin.sum_univ_four]
  simp only [e]

/-- 512 = 4·128: the same for a sum over 512 indices. -/
theorem sum_512 {M : Type*} [AddCommMonoid M] (f : Fin 512 → M) :
    ∑ k, f k =
      ((∑ i : Fin 128, f ⟨128 * (0 : Fin 4).val + i.val, by have := (0 : Fin 4).isLt; omega⟩
        + ∑ i : Fin 128, f ⟨128 * (1 : Fin 4).val + i.val, by have := (1 : Fin 4).isLt; omega⟩)
        + ∑ i : Fin 128, f ⟨128 * (2 : Fin 4).val + i.val, by have := (2 : Fin 4).isLt; omega⟩)
        + ∑ i : Fin 128, f ⟨128 * (3 : Fin 4).val + i.val, by have := (3 : Fin 4).isLt; omega⟩ := by
  have e : ∀ (q : Fin 4) (i : Fin 128),
      (finProdFinEquiv (q, i) : Fin (4 * 128)) = (⟨128 * q.val + i.val, by have := q.isLt; omega⟩ : Fin 512) :=
    fun q i => Fin.ext (by simp [finProdFinEquiv]; omega)
  have h := sum_quarters 128 f
  rw [h, Fin.sum_univ_four]
  simp only [e]

/-! ## The blocks read at an index -/

/-- A 512×512 block of a weight at (i, k) is the weight at (512 q + i, 512 t + k). -/
theorem colBlk_apply (W : SW.Idx → EReal) (q t : Fin 4) (i k : Fin 512) :
    colBlk W q t (ix2 i k)
      = W (ix2 (⟨512 * q.val + i.val, by have := q.isLt; omega⟩ : Fin 2048)
          (⟨512 * t.val + k.val, by have := t.isLt; omega⟩ : Fin 2048)) := rfl

/-- A 128-row block of a weight at (k, c) is the weight at (512 t + 128 q + k, c): 128 (4 t + q) = 512 t + 128 q. -/
theorem rowBlk_apply (W : SW.Idx → EReal) (q t : Fin 4) (k : Fin 128) (c : Fin 2048) :
    rowBlk W q t (ix2 k c)
      = W (ix2 (⟨512 * t.val + (128 * q.val + k.val), by have := q.isLt; have := t.isLt; omega⟩ : Fin 2048) c) := by
  have h : (⟨128 * (4 * t.val + q.val) + k.val, by have := q.isLt; have := t.isLt; omega⟩ : Fin 2048)
      = ⟨512 * t.val + (128 * q.val + k.val), by have := q.isLt; have := t.isLt; omega⟩ :=
    Fin.ext (by show 128 * (4 * t.val + q.val) + k.val = 512 * t.val + (128 * q.val + k.val); omega)
  show W (ix2 (⟨128 * (4 * t.val + q.val) + k.val, _⟩ : Fin 2048) (⟨c.val, c.isLt⟩ : Fin 2048)) = _
  rw [h]

/-- The kernel's projection at point t, column k of the block, is the reference's at column 512 t + k: the four
    slices' products are the four quarters of the one sum over 2048 rows. -/
theorem projK_eq (X : SX.Idx → EReal) (W : SW.Idx → EReal) (t : Fin 4) (r : Fin 32) (k : Fin 512) :
    projK X (colBlk W 0 t) (colBlk W 1 t) (colBlk W 2 t) (colBlk W 3 t) r k
      = proj X W r (⟨512 * t.val + k.val, by have := t.isLt; omega⟩ : Fin 2048) := by
  unfold projK dot512 proj
  rw [sum_2048 (fun i : Fin 2048 =>
    X (ix2 r i) * W (ix2 i (⟨512 * t.val + k.val, by have := t.isLt; omega⟩ : Fin 2048)))]
  rfl

/-- Hence the activation at point t, column k of the block, is the reference's at column 512 t + k. -/
theorem actK_eq (X : SX.Idx → EReal) (Wg Wu : SW.Idx → EReal) (t : Fin 4) (r : Fin 32) (k : Fin 512) :
    actK X (colBlk Wg 0 t) (colBlk Wg 1 t) (colBlk Wg 2 t) (colBlk Wg 3 t)
        (colBlk Wu 0 t) (colBlk Wu 1 t) (colBlk Wu 2 t) (colBlk Wu 3 t) r k
      = swiglu (proj X Wg r (⟨512 * t.val + k.val, by have := t.isLt; omega⟩ : Fin 2048))
          (proj X Wu r (⟨512 * t.val + k.val, by have := t.isLt; omega⟩ : Fin 2048)) := by
  unfold actK
  rw [projK_eq, projK_eq]

/-- One slice of the down projection at point t is the reference's summand over columns 512 t + 128 q + k. -/
theorem dot128_eq (X : SX.Idx → EReal) (Wg Wu Wd : SW.Idx → EReal) (q t : Fin 4) (j : SX.Idx) :
    dot128 (actK X (colBlk Wg 0 t) (colBlk Wg 1 t) (colBlk Wg 2 t) (colBlk Wg 3 t)
        (colBlk Wu 0 t) (colBlk Wu 1 t) (colBlk Wu 2 t) (colBlk Wu 3 t)) q (rowBlk Wd q t) j
      = ∑ k : Fin 128,
          swiglu (proj X Wg (j 0) (⟨512 * t.val + (128 * q.val + k.val), by have := q.isLt; have := t.isLt; omega⟩ : Fin 2048))
              (proj X Wu (j 0) (⟨512 * t.val + (128 * q.val + k.val), by have := q.isLt; have := t.isLt; omega⟩ : Fin 2048))
            * Wd (ix2 (⟨512 * t.val + (128 * q.val + k.val), by have := q.isLt; have := t.isLt; omega⟩ : Fin 2048) (j 1)) := by
  unfold dot128
  refine Finset.sum_congr rfl (fun k _ => ?_)
  exact congrArg₂ (· * ·)
    (actK_eq X Wg Wu t (j 0) (⟨128 * q.val + k.val, by have := q.isLt; omega⟩ : Fin 512))
    (rowBlk_apply Wd q t k (j 1))

/-- Point t's contribution is the reference's sum over its 512 columns 512 t + i. -/
theorem contribAt_eq (X : SX.Idx → EReal) (Wg Wu Wd : SW.Idx → EReal) (t : Fin 4) (j : SX.Idx) :
    contribAt X Wg Wu Wd t j
      = ∑ i : Fin 512,
          swiglu (proj X Wg (j 0) (⟨512 * t.val + i.val, by have := t.isLt; omega⟩ : Fin 2048))
              (proj X Wu (j 0) (⟨512 * t.val + i.val, by have := t.isLt; omega⟩ : Fin 2048))
            * Wd (ix2 (⟨512 * t.val + i.val, by have := t.isLt; omega⟩ : Fin 2048) (j 1)) := by
  unfold contribAt contribK
  rw [dot128_eq, dot128_eq, dot128_eq, dot128_eq]
  rw [sum_512 (fun i : Fin 512 =>
    swiglu (proj X Wg (j 0) (⟨512 * t.val + i.val, by have := t.isLt; omega⟩ : Fin 2048))
        (proj X Wu (j 0) (⟨512 * t.val + i.val, by have := t.isLt; omega⟩ : Fin 2048))
      * Wd (ix2 (⟨512 * t.val + i.val, by have := t.isLt; omega⟩ : Fin 2048) (j 1)))]

/-! ## The two arrangements are one function -/

/-- The four points' contributions, added in the kernel's order, are the whole MLP. -/
theorem sum_contribAt (X : SX.Idx → EReal) (Wg Wu Wd : SW.Idx → EReal) (j : SX.Idx) :
    ((contribAt X Wg Wu Wd 0 j + contribAt X Wg Wu Wd 1 j) + contribAt X Wg Wu Wd 2 j) + contribAt X Wg Wu Wd 3 j
      = mlp X Wg Wu Wd j := by
  unfold mlp
  rw [contribAt_eq, contribAt_eq, contribAt_eq, contribAt_eq]
  rw [sum_2048 (fun k : Fin 2048 =>
    swiglu (proj X Wg (j 0) k) (proj X Wu (j 0) k) * Wd (ix2 k (j 1)))]

end Cert.Spec

end
-- ==== Proof.KernelIdeal.Payload.lean ====
/-
  The kernel's payloads at the ideal instance, read at an index: a grid point's contribution is the specification's
  `contribK` of the blocks it is handed, and the accumulate branch adds it to what the buffer held.
-/
import proofs.«160544_g77111842832762_cont_sun_m_58_31_alg».proof.Proof.Gen.KernelIdeal.Skeleton
import proofs.«160544_g77111842832762_cont_sun_m_58_31_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pay

open Cert.KernelIdeal Cert.KernelIdeal.Gen Idealize.ShloMosaic Idealize.ShloMosaic.ValueIdx

/-! ## The 512-deep product at an index -/

theorem lhsG_0 (i : S32x512.Idx) (q : dot_S32x512_S512x512_S32x512_1_0_0_1_n_n.contr.Idx) :
    (dot_S32x512_S512x512_S32x512_1_0_0_1_n_n.lhsIdx i q 0).val = (i 0).val := by
  unfold DotDims.lhsIdx
  rw [dif_neg (show ¬(0 : Fin S32x512.rank) ∈ dot_S32x512_S512x512_S32x512_1_0_0_1_n_n.lhsBatch by decide), dif_pos (show (0 : Fin S32x512.rank) ∈ dot_S32x512_S512x512_S32x512_1_0_0_1_n_n.lhsNonContracting by decide)]
  rfl
theorem lhsG_1 (i : S32x512.Idx) (q : dot_S32x512_S512x512_S32x512_1_0_0_1_n_n.contr.Idx) :
    (dot_S32x512_S512x512_S32x512_1_0_0_1_n_n.lhsIdx i q 1).val = (q ⟨0, by decide⟩).val :=
  dot_S32x512_S512x512_S32x512_1_0_0_1_n_n.lhsIdx_val_of_single rfl i q
theorem rhsG_0 (i : S32x512.Idx) (q : dot_S32x512_S512x512_S32x512_1_0_0_1_n_n.contr.Idx) :
    (dot_S32x512_S512x512_S32x512_1_0_0_1_n_n.rhsIdx i q 0).val = (q ⟨0, by decide⟩).val :=
  dot_S32x512_S512x512_S32x512_1_0_0_1_n_n.rhsIdx_val_of_single rfl i q
theorem rhsG_1 (i : S32x512.Idx) (q : dot_S32x512_S512x512_S32x512_1_0_0_1_n_n.contr.Idx) :
    (dot_S32x512_S512x512_S32x512_1_0_0_1_n_n.rhsIdx i q 1).val = (i 1).val := by
  unfold DotDims.rhsIdx
  rw [dif_neg (show ¬(1 : Fin S512x512.rank) ∈ dot_S32x512_S512x512_S32x512_1_0_0_1_n_n.rhsBatch by decide), dif_pos (show (1 : Fin S512x512.rank) ∈ dot_S32x512_S512x512_S32x512_1_0_0_1_n_n.rhsNonContracting by decide)]
  rfl

/-- A product into the zero splat, read at (r, c): the sum over the 512 contracted positions. -/
theorem mmG_apply (a : Vec Ideal S32x512 .f32) (b : Vec Ideal S512x512 .f32) (r : Fin 32) (c : Fin 512) :
    matmul (F := Ideal) (φ₁ := .f32) (φ₂ := .f32) dot_S32x512_S512x512_S32x512_1_0_0_1_n_n none a b (constant (F := Ideal) S32x512 .f32 0x00000000#32) (ix2 r c)
      = ∑ i : Fin 512, a (ix2 r i) * b (ix2 i c) := by
  refine (Ideal.matmul_constant_zero_apply dot_S32x512_S512x512_S32x512_1_0_0_1_n_n none a b (ix2 r c)).trans ?_
  rw [← Equiv.sum_comp (ValueIdx.contrEquiv1 dot_S32x512_S512x512_S32x512_1_0_0_1_n_n 512 rfl rfl).symm]
  refine Finset.sum_congr rfl fun i _ => ?_
  have hk := ValueIdx.contrEquiv1_symm_val dot_S32x512_S512x512_S32x512_1_0_0_1_n_n 512 rfl rfl i
  have el : dot_S32x512_S512x512_S32x512_1_0_0_1_n_n.lhsIdx (ix2 r c) ((ValueIdx.contrEquiv1 dot_S32x512_S512x512_S32x512_1_0_0_1_n_n 512 rfl rfl).symm i) = ix2 r i := funext fun a => Fin.ext (by
    match a with
    | ⟨0, _⟩ => exact lhsG_0 _ _
    | ⟨1, _⟩ => exact (lhsG_1 _ _).trans hk)
  have er : dot_S32x512_S512x512_S32x512_1_0_0_1_n_n.rhsIdx (ix2 r c) ((ValueIdx.contrEquiv1 dot_S32x512_S512x512_S32x512_1_0_0_1_n_n 512 rfl rfl).symm i) = ix2 i c := funext fun a => Fin.ext (by
    match a with
    | ⟨0, _⟩ => exact (rhsG_0 _ _).trans hk
    | ⟨1, _⟩ => exact rhsG_1 _ _)
  rw [el, er]

/-! ## The 128-deep product at an index -/

theorem lhsD_0 (i : S32x2048.Idx) (q : dot_S32x128_S128x2048_S32x2048_1_0_0_1_n_n.contr.Idx) :
    (dot_S32x128_S128x2048_S32x2048_1_0_0_1_n_n.lhsIdx i q 0).val = (i 0).val := by
  unfold DotDims.lhsIdx
  rw [dif_neg (show ¬(0 : Fin S32x128.rank) ∈ dot_S32x128_S128x2048_S32x2048_1_0_0_1_n_n.lhsBatch by decide), dif_pos (show (0 : Fin S32x128.rank) ∈ dot_S32x128_S128x2048_S32x2048_1_0_0_1_n_n.lhsNonContracting by decide)]
  rfl
theorem lhsD_1 (i : S32x2048.Idx) (q : dot_S32x128_S128x2048_S32x2048_1_0_0_1_n_n.contr.Idx) :
    (dot_S32x128_S128x2048_S32x2048_1_0_0_1_n_n.lhsIdx i q 1).val = (q ⟨0, by decide⟩).val :=
  dot_S32x128_S128x2048_S32x2048_1_0_0_1_n_n.lhsIdx_val_of_single rfl i q
theorem rhsD_0 (i : S32x2048.Idx) (q : dot_S32x128_S128x2048_S32x2048_1_0_0_1_n_n.contr.Idx) :
    (dot_S32x128_S128x2048_S32x2048_1_0_0_1_n_n.rhsIdx i q 0).val = (q ⟨0, by decide⟩).val :=
  dot_S32x128_S128x2048_S32x2048_1_0_0_1_n_n.rhsIdx_val_of_single rfl i q
theorem rhsD_1 (i : S32x2048.Idx) (q : dot_S32x128_S128x2048_S32x2048_1_0_0_1_n_n.contr.Idx) :
    (dot_S32x128_S128x2048_S32x2048_1_0_0_1_n_n.rhsIdx i q 1).val = (i 1).val := by
  unfold DotDims.rhsIdx
  rw [dif_neg (show ¬(1 : Fin S128x2048.rank) ∈ dot_S32x128_S128x2048_S32x2048_1_0_0_1_n_n.rhsBatch by decide), dif_pos (show (1 : Fin S128x2048.rank) ∈ dot_S32x128_S128x2048_S32x2048_1_0_0_1_n_n.rhsNonContracting by decide)]
  rfl

/-- A product into the zero splat, read at (r, c): the sum over the 128 contracted positions. -/
theorem mmD_apply (a : Vec Ideal S32x128 .f32) (b : Vec Ideal S128x2048 .f32) (r : Fin 32) (c : Fin 2048) :
    matmul (F := Ideal) (φ₁ := .f32) (φ₂ := .f32) dot_S32x128_S128x2048_S32x2048_1_0_0_1_n_n none a b (constant (F := Ideal) S32x2048 .f32 0x00000000#32) (ix2 r c)
      = ∑ i : Fin 128, a (ix2 r i) * b (ix2 i c) := by
  refine (Ideal.matmul_constant_zero_apply dot_S32x128_S128x2048_S32x2048_1_0_0_1_n_n none a b (ix2 r c)).trans ?_
  rw [← Equiv.sum_comp (ValueIdx.contrEquiv1 dot_S32x128_S128x2048_S32x2048_1_0_0_1_n_n 128 rfl rfl).symm]
  refine Finset.sum_congr rfl fun i _ => ?_
  have hk := ValueIdx.contrEquiv1_symm_val dot_S32x128_S128x2048_S32x2048_1_0_0_1_n_n 128 rfl rfl i
  have el : dot_S32x128_S128x2048_S32x2048_1_0_0_1_n_n.lhsIdx (ix2 r c) ((ValueIdx.contrEquiv1 dot_S32x128_S128x2048_S32x2048_1_0_0_1_n_n 128 rfl rfl).symm i) = ix2 r i := funext fun a => Fin.ext (by
    match a with
    | ⟨0, _⟩ => exact lhsD_0 _ _
    | ⟨1, _⟩ => exact (lhsD_1 _ _).trans hk)
  have er : dot_S32x128_S128x2048_S32x2048_1_0_0_1_n_n.rhsIdx (ix2 r c) ((ValueIdx.contrEquiv1 dot_S32x128_S128x2048_S32x2048_1_0_0_1_n_n 128 rfl rfl).symm i) = ix2 i c := funext fun a => Fin.ext (by
    match a with
    | ⟨0, _⟩ => exact (rhsD_0 _ _).trans hk
    | ⟨1, _⟩ => exact rhsD_1 _ _)
  rw [el, er]

/-! ## A slice of the left operand, then the product: the specification's partial sums -/

/-- Columns 512 q .. of x against a 512×512 block, read at (r, k). -/
theorem mmX_apply (x : Vec Ideal S32x2048 .f32) (o : Nat) (h : S32x2048.Slices ![0, o] S32x512) (q : Fin 4)
    (ho : o = 512 * q.val) (B : Vec Ideal S512x512 .f32) (r : Fin 32) (k : Fin 512) :
    matmul (F := Ideal) (φ₁ := .f32) (φ₂ := .f32) dot_S32x512_S512x512_S32x512_1_0_0_1_n_n none
        (extractStridedSlice S32x512 ![0, o] x h) B (constant (F := Ideal) S32x512 .f32 0x00000000#32) (ix2 r k)
      = Cert.Spec.dot512 x q B r k := by
  subst ho
  refine (mmG_apply _ B r k).trans ?_
  unfold Cert.Spec.dot512
  refine Finset.sum_congr rfl fun i _ => ?_
  exact congrArg (· * B (ix2 i k)) (slice2_axis1_apply (512 * q.val) x h r i _ rfl)

/-- Columns 128 q .. of an activation against a 128×2048 block, read at (r, c). -/
theorem mmA_apply (A : FVec Ideal S32x512 .f32) (o : Nat) (h : S32x512.Slices ![0, o] S32x128) (q : Fin 4)
    (ho : o = 128 * q.val) (D : Vec Ideal S128x2048 .f32) (r : Fin 32) (c : Fin 2048)
    (A' : Fin 32 → Fin 512 → EReal) (hA : ∀ r k, A (ix2 r k) = A' r k) :
    matmul (F := Ideal) (φ₁ := .f32) (φ₂ := .f32) dot_S32x128_S128x2048_S32x2048_1_0_0_1_n_n none
        (extractStridedSlice S32x128 ![0, o] A h) D (constant (F := Ideal) S32x2048 .f32 0x00000000#32) (ix2 r c)
      = Cert.Spec.dot128 A' q D (ix2 r c) := by
  subst ho
  refine (mmD_apply _ D r c).trans ?_
  unfold Cert.Spec.dot128
  refine Finset.sum_congr rfl fun i _ => ?_
  exact congrArg (· * D (ix2 i c)) ((slice2_axis1_apply (128 * q.val) A h r i _ rfl).trans (hA _ _))

/-! ## The payloads -/

/-- The activation payload at (r, k): the specification's activation at the grid point. -/
theorem pay3_apply (x : Vec Ideal S32x2048 .f32) (g0 g1 g2 g3 u0 u1 u2 u3 : Vec Ideal S512x512 .f32)
    (r : Fin 32) (k : Fin 512) :
    k0_pay3 (F := Ideal) x g0 u0 g1 u1 g2 u2 g3 u3 (ix2 r k) = Cert.Spec.actK x g0 g1 g2 g3 u0 u1 u2 u3 r k := by
  have eg0 := mmX_apply x 0 slices_S32x2048_o0_0_S32x512 0 rfl g0 r k
  have eg1 := mmX_apply x 512 slices_S32x2048_o0_512_S32x512 1 rfl g1 r k
  have eg2 := mmX_apply x 1024 slices_S32x2048_o0_1024_S32x512 2 rfl g2 r k
  have eg3 := mmX_apply x 1536 slices_S32x2048_o0_1536_S32x512 3 rfl g3 r k
  have eu0 := mmX_apply x 0 slices_S32x2048_o0_0_S32x512 0 rfl u0 r k
  have eu1 := mmX_apply x 512 slices_S32x2048_o0_512_S32x512 1 rfl u1 r k
  have eu2 := mmX_apply x 1024 slices_S32x2048_o0_1024_S32x512 2 rfl u2 r k
  have eu3 := mmX_apply x 1536 slices_S32x2048_o0_1536_S32x512 3 rfl u3 r k
  unfold Cert.Spec.actK Cert.Spec.swiglu Cert.Spec.projK
  rw [← eg0, ← eg1, ← eg2, ← eg3, ← eu0, ← eu1, ← eu2, ← eu3]
  rfl

/-- The store branch's payload at an index: the point's contribution. -/
theorem contrib_apply (x : Vec Ideal S32x2048 .f32) (g0 g1 g2 g3 u0 u1 u2 u3 : Vec Ideal S512x512 .f32)
    (d0 d1 d2 d3 : Vec Ideal S128x2048 .f32) (j : S32x2048.Idx) :
    k0_pay1 (F := Ideal) (k0_pay3 x g0 u0 g1 u1 g2 u2 g3 u3) (k0_pay4 x g0 u0 g1 u1 g2 u2 g3 u3) d0 d1 d2 d3 j
      = Cert.Spec.contribK x g0 g1 g2 g3 u0 u1 u2 u3 d0 d1 d2 d3 j := by
  obtain ⟨r, c, rfl⟩ : ∃ (r : Fin 32) (c : Fin 2048), j = ix2 r c := ⟨j 0, j 1, eq_ix2 j⟩
  have hA := pay3_apply x g0 g1 g2 g3 u0 u1 u2 u3
  have e0 := mmA_apply (k0_pay3 (F := Ideal) x g0 u0 g1 u1 g2 u2 g3 u3) 0 slices_S32x512_o0_0_S32x128 0 rfl d0 r c _ hA
  have e1 := mmA_apply (k0_pay3 (F := Ideal) x g0 u0 g1 u1 g2 u2 g3 u3) 128 slices_S32x512_o0_128_S32x128 1 rfl d1 r c _ hA
  have e2 := mmA_apply (k0_pay3 (F := Ideal) x g0 u0 g1 u1 g2 u2 g3 u3) 256 slices_S32x512_o0_256_S32x128 2 rfl d2 r c _ hA
  have e3 := mmA_apply (k0_pay3 (F := Ideal) x g0 u0 g1 u1 g2 u2 g3 u3) 384 slices_S32x512_o0_384_S32x128 3 rfl d3 r c _ hA
  unfold Cert.Spec.contribK
  rw [← e0, ← e1, ← e2, ← e3]
  rfl

/-- The accumulate branch's payload at an index: what the buffer held plus the point's contribution. -/
theorem accum_apply (x : Vec Ideal S32x2048 .f32) (g0 g1 g2 g3 u0 u1 u2 u3 : Vec Ideal S512x512 .f32)
    (d0 d1 d2 d3 : Vec Ideal S128x2048 .f32) (acc : Vec Ideal S32x2048 .f32) (j : S32x2048.Idx) :
    k0_pay2 (F := Ideal) (k0_pay3 x g0 u0 g1 u1 g2 u2 g3 u3) (k0_pay4 x g0 u0 g1 u1 g2 u2 g3 u3) d0 d1 d2 d3 acc j
      = acc j + Cert.Spec.contribK x g0 g1 g2 g3 u0 u1 u2 u3 d0 d1 d2 d3 j := by
  rw [← contrib_apply x g0 g1 g2 g3 u0 u1 u2 u3 d0 d1 d2 d3 j]
  unfold k0_pay2
  rw [shapeCast_self]
  rfl

end Cert.KernelIdeal.Pay

end
-- ==== Proof.KernelIdeal.Value.lean ====
/-
  The kernel's value at the ideal instance: the result array after the run is the whole MLP of the four arguments.

  Each window's block is the specification's block of its array: x whole; the gate weight's and the up weight's
  512×512 block (q, t); the down weight's 128-row block 4 t + q. So a point's contribution is the specification's
  `contribAt` at that point, the running sum after point n is the contributions of points 0..n added in order, and
  after the last point it is, by the specification's regrouping, the reference's one sum.
-/
import proofs.«160544_g77111842832762_cont_sun_m_58_31_alg».proof.Proof.KernelIdeal.Frame
import proofs.«160544_g77111842832762_cont_sun_m_58_31_alg».proof.Proof.KernelIdeal.Payload
import proofs.«160544_g77111842832762_cont_sun_m_58_31_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- A grid point as a number below four. -/
def tq (t : Fin cfg0.N) : Fin 4 := ⟨t.val, lt_of_lt_of_eq t.isLt N_0⟩

/-- The input windows' block indices, decided over the grid: x's block is (0, 0); the gate and up windows' are
    (q, t); the down windows' are (4 t + q, 0). -/
theorem idx_in : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 1 ∧ win0_2.index t (1 : Fin 2) = t.val
    ∧ win0_3.index t (0 : Fin 2) = 2 ∧ win0_3.index t (1 : Fin 2) = t.val
    ∧ win0_4.index t (0 : Fin 2) = 3 ∧ win0_4.index t (1 : Fin 2) = t.val
    ∧ win0_5.index t (0 : Fin 2) = 0 ∧ win0_5.index t (1 : Fin 2) = t.val
    ∧ win0_6.index t (0 : Fin 2) = 1 ∧ win0_6.index t (1 : Fin 2) = t.val
    ∧ win0_7.index t (0 : Fin 2) = 2 ∧ win0_7.index t (1 : Fin 2) = t.val
    ∧ win0_8.index t (0 : Fin 2) = 3 ∧ win0_8.index t (1 : Fin 2) = t.val
    ∧ win0_9.index t (0 : Fin 2) = 4 * t.val + 0 ∧ win0_9.index t (1 : Fin 2) = 0
    ∧ win0_10.index t (0 : Fin 2) = 4 * t.val + 1 ∧ win0_10.index t (1 : Fin 2) = 0
    ∧ win0_11.index t (0 : Fin 2) = 4 * t.val + 2 ∧ win0_11.index t (1 : Fin 2) = 0
    ∧ win0_12.index t (0 : Fin 2) = 4 * t.val + 3 ∧ win0_12.index t (1 : Fin 2) = 0 :=
  (by decide +kernel : ∀ t : Fin grid0.N, _)

/-! ## The blocks -/

theorem blk_w0 (c : Dev nD) (t : Fin cfg0.N) : (iblk m c 0 t : Vec Ideal S32x2048 .f32) = V m c main_arg0 := by
  funext y
  show V m c main_arg0 (((cfg0.win 0).blk t).view.emb y) = V m c main_arg0 y
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_0.index t (0 : Fin 2) * 32 + 1 * (y 0).val = (y 0).val; omega
  | ⟨1, _⟩ => show win0_0.index t (1 : Fin 2) * 2048 + 1 * (y 1).val = (y 1).val; omega

theorem blk_w1 (c : Dev nD) (t : Fin cfg0.N) :
    (iblk m c 1 t : Vec Ideal S512x512 .f32) = Cert.Spec.colBlk (V m c main_arg1) 0 (tq t) := by
  funext y
  show V m c main_arg1 (((cfg0.win 1).blk t).view.emb y)
    = V m c main_arg1 (ix2 (⟨512 * (0 : Fin 4).val + (y 0).val, _⟩ : Fin 2048) (⟨512 * (tq t).val + (y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_1.index t (0 : Fin 2) * 512 + 1 * (y 0).val = 512 * (0 : Fin 4).val + (y 0).val; rw [e1a]; show 0 * 512 + 1 * (y 0).val = 512 * 0 + (y 0).val; omega
  | ⟨1, _⟩ => show win0_1.index t (1 : Fin 2) * 512 + 1 * (y 1).val = 512 * (tq t).val + (y 1).val; rw [e1b]; show t.val * 512 + 1 * (y 1).val = 512 * t.val + (y 1).val; omega

theorem blk_w2 (c : Dev nD) (t : Fin cfg0.N) :
    (iblk m c 2 t : Vec Ideal S512x512 .f32) = Cert.Spec.colBlk (V m c main_arg1) 1 (tq t) := by
  funext y
  show V m c main_arg1 (((cfg0.win 2).blk t).view.emb y)
    = V m c main_arg1 (ix2 (⟨512 * (1 : Fin 4).val + (y 0).val, _⟩ : Fin 2048) (⟨512 * (tq t).val + (y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_2.index t (0 : Fin 2) * 512 + 1 * (y 0).val = 512 * (1 : Fin 4).val + (y 0).val; rw [e2a]; show 1 * 512 + 1 * (y 0).val = 512 * 1 + (y 0).val; omega
  | ⟨1, _⟩ => show win0_2.index t (1 : Fin 2) * 512 + 1 * (y 1).val = 512 * (tq t).val + (y 1).val; rw [e2b]; show t.val * 512 + 1 * (y 1).val = 512 * t.val + (y 1).val; omega

theorem blk_w3 (c : Dev nD) (t : Fin cfg0.N) :
    (iblk m c 3 t : Vec Ideal S512x512 .f32) = Cert.Spec.colBlk (V m c main_arg1) 2 (tq t) := by
  funext y
  show V m c main_arg1 (((cfg0.win 3).blk t).view.emb y)
    = V m c main_arg1 (ix2 (⟨512 * (2 : Fin 4).val + (y 0).val, _⟩ : Fin 2048) (⟨512 * (tq t).val + (y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_3.index t (0 : Fin 2) * 512 + 1 * (y 0).val = 512 * (2 : Fin 4).val + (y 0).val; rw [e3a]; show 2 * 512 + 1 * (y 0).val = 512 * 2 + (y 0).val; omega
  | ⟨1, _⟩ => show win0_3.index t (1 : Fin 2) * 512 + 1 * (y 1).val = 512 * (tq t).val + (y 1).val; rw [e3b]; show t.val * 512 + 1 * (y 1).val = 512 * t.val + (y 1).val; omega

theorem blk_w4 (c : Dev nD) (t : Fin cfg0.N) :
    (iblk m c 4 t : Vec Ideal S512x512 .f32) = Cert.Spec.colBlk (V m c main_arg1) 3 (tq t) := by
  funext y
  show V m c main_arg1 (((cfg0.win 4).blk t).view.emb y)
    = V m c main_arg1 (ix2 (⟨512 * (3 : Fin 4).val + (y 0).val, _⟩ : Fin 2048) (⟨512 * (tq t).val + (y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_4.index t (0 : Fin 2) * 512 + 1 * (y 0).val = 512 * (3 : Fin 4).val + (y 0).val; rw [e4a]; show 3 * 512 + 1 * (y 0).val = 512 * 3 + (y 0).val; omega
  | ⟨1, _⟩ => show win0_4.index t (1 : Fin 2) * 512 + 1 * (y 1).val = 512 * (tq t).val + (y 1).val; rw [e4b]; show t.val * 512 + 1 * (y 1).val = 512 * t.val + (y 1).val; omega

theorem blk_w5 (c : Dev nD) (t : Fin cfg0.N) :
    (iblk m c 5 t : Vec Ideal S512x512 .f32) = Cert.Spec.colBlk (V m c main_arg2) 0 (tq t) := by
  funext y
  show V m c main_arg2 (((cfg0.win 5).blk t).view.emb y)
    = V m c main_arg2 (ix2 (⟨512 * (0 : Fin 4).val + (y 0).val, _⟩ : Fin 2048) (⟨512 * (tq t).val + (y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_5.index t (0 : Fin 2) * 512 + 1 * (y 0).val = 512 * (0 : Fin 4).val + (y 0).val; rw [e5a]; show 0 * 512 + 1 * (y 0).val = 512 * 0 + (y 0).val; omega
  | ⟨1, _⟩ => show win0_5.index t (1 : Fin 2) * 512 + 1 * (y 1).val = 512 * (tq t).val + (y 1).val; rw [e5b]; show t.val * 512 + 1 * (y 1).val = 512 * t.val + (y 1).val; omega

theorem blk_w6 (c : Dev nD) (t : Fin cfg0.N) :
    (iblk m c 6 t : Vec Ideal S512x512 .f32) = Cert.Spec.colBlk (V m c main_arg2) 1 (tq t) := by
  funext y
  show V m c main_arg2 (((cfg0.win 6).blk t).view.emb y)
    = V m c main_arg2 (ix2 (⟨512 * (1 : Fin 4).val + (y 0).val, _⟩ : Fin 2048) (⟨512 * (tq t).val + (y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_6.index t (0 : Fin 2) * 512 + 1 * (y 0).val = 512 * (1 : Fin 4).val + (y 0).val; rw [e6a]; show 1 * 512 + 1 * (y 0).val = 512 * 1 + (y 0).val; omega
  | ⟨1, _⟩ => show win0_6.index t (1 : Fin 2) * 512 + 1 * (y 1).val = 512 * (tq t).val + (y 1).val; rw [e6b]; show t.val * 512 + 1 * (y 1).val = 512 * t.val + (y 1).val; omega

theorem blk_w7 (c : Dev nD) (t : Fin cfg0.N) :
    (iblk m c 7 t : Vec Ideal S512x512 .f32) = Cert.Spec.colBlk (V m c main_arg2) 2 (tq t) := by
  funext y
  show V m c main_arg2 (((cfg0.win 7).blk t).view.emb y)
    = V m c main_arg2 (ix2 (⟨512 * (2 : Fin 4).val + (y 0).val, _⟩ : Fin 2048) (⟨512 * (tq t).val + (y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_7.index t (0 : Fin 2) * 512 + 1 * (y 0).val = 512 * (2 : Fin 4).val + (y 0).val; rw [e7a]; show 2 * 512 + 1 * (y 0).val = 512 * 2 + (y 0).val; omega
  | ⟨1, _⟩ => show win0_7.index t (1 : Fin 2) * 512 + 1 * (y 1).val = 512 * (tq t).val + (y 1).val; rw [e7b]; show t.val * 512 + 1 * (y 1).val = 512 * t.val + (y 1).val; omega

theorem blk_w8 (c : Dev nD) (t : Fin cfg0.N) :
    (iblk m c 8 t : Vec Ideal S512x512 .f32) = Cert.Spec.colBlk (V m c main_arg2) 3 (tq t) := by
  funext y
  show V m c main_arg2 (((cfg0.win 8).blk t).view.emb y)
    = V m c main_arg2 (ix2 (⟨512 * (3 : Fin 4).val + (y 0).val, _⟩ : Fin 2048) (⟨512 * (tq t).val + (y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_8.index t (0 : Fin 2) * 512 + 1 * (y 0).val = 512 * (3 : Fin 4).val + (y 0).val; rw [e8a]; show 3 * 512 + 1 * (y 0).val = 512 * 3 + (y 0).val; omega
  | ⟨1, _⟩ => show win0_8.index t (1 : Fin 2) * 512 + 1 * (y 1).val = 512 * (tq t).val + (y 1).val; rw [e8b]; show t.val * 512 + 1 * (y 1).val = 512 * t.val + (y 1).val; omega

theorem blk_w9 (c : Dev nD) (t : Fin cfg0.N) :
    (iblk m c 9 t : Vec Ideal S128x2048 .f32) = Cert.Spec.rowBlk (V m c main_arg3) 0 (tq t) := by
  funext y
  show V m c main_arg3 (((cfg0.win 9).blk t).view.emb y)
    = V m c main_arg3 (ix2 (⟨128 * (4 * (tq t).val + (0 : Fin 4).val) + (y 0).val, _⟩ : Fin 2048) (⟨(y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_9.index t (0 : Fin 2) * 128 + 1 * (y 0).val = 128 * (4 * (tq t).val + (0 : Fin 4).val) + (y 0).val; rw [e9a]; show (4 * t.val + 0) * 128 + 1 * (y 0).val = 128 * (4 * t.val + 0) + (y 0).val; omega
  | ⟨1, _⟩ => show win0_9.index t (1 : Fin 2) * 2048 + 1 * (y 1).val = (y 1).val; rw [e9b]; omega

theorem blk_w10 (c : Dev nD) (t : Fin cfg0.N) :
    (iblk m c 10 t : Vec Ideal S128x2048 .f32) = Cert.Spec.rowBlk (V m c main_arg3) 1 (tq t) := by
  funext y
  show V m c main_arg3 (((cfg0.win 10).blk t).view.emb y)
    = V m c main_arg3 (ix2 (⟨128 * (4 * (tq t).val + (1 : Fin 4).val) + (y 0).val, _⟩ : Fin 2048) (⟨(y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_10.index t (0 : Fin 2) * 128 + 1 * (y 0).val = 128 * (4 * (tq t).val + (1 : Fin 4).val) + (y 0).val; rw [e10a]; show (4 * t.val + 1) * 128 + 1 * (y 0).val = 128 * (4 * t.val + 1) + (y 0).val; omega
  | ⟨1, _⟩ => show win0_10.index t (1 : Fin 2) * 2048 + 1 * (y 1).val = (y 1).val; rw [e10b]; omega

theorem blk_w11 (c : Dev nD) (t : Fin cfg0.N) :
    (iblk m c 11 t : Vec Ideal S128x2048 .f32) = Cert.Spec.rowBlk (V m c main_arg3) 2 (tq t) := by
  funext y
  show V m c main_arg3 (((cfg0.win 11).blk t).view.emb y)
    = V m c main_arg3 (ix2 (⟨128 * (4 * (tq t).val + (2 : Fin 4).val) + (y 0).val, _⟩ : Fin 2048) (⟨(y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_11.index t (0 : Fin 2) * 128 + 1 * (y 0).val = 128 * (4 * (tq t).val + (2 : Fin 4).val) + (y 0).val; rw [e11a]; show (4 * t.val + 2) * 128 + 1 * (y 0).val = 128 * (4 * t.val + 2) + (y 0).val; omega
  | ⟨1, _⟩ => show win0_11.index t (1 : Fin 2) * 2048 + 1 * (y 1).val = (y 1).val; rw [e11b]; omega

theorem blk_w12 (c : Dev nD) (t : Fin cfg0.N) :
    (iblk m c 12 t : Vec Ideal S128x2048 .f32) = Cert.Spec.rowBlk (V m c main_arg3) 3 (tq t) := by
  funext y
  show V m c main_arg3 (((cfg0.win 12).blk t).view.emb y)
    = V m c main_arg3 (ix2 (⟨128 * (4 * (tq t).val + (3 : Fin 4).val) + (y 0).val, _⟩ : Fin 2048) (⟨(y 1).val, _⟩ : Fin 2048))
  refine congrArg _ (funext fun a => Fin.ext ?_)
  obtain ⟨e0a, e0b, e1a, e1b, e2a, e2b, e3a, e3b, e4a, e4b, e5a, e5b, e6a, e6b, e7a, e7b, e8a, e8b, e9a, e9b, e10a, e10b, e11a, e11b, e12a, e12b⟩ := idx_in t
  match a with
  | ⟨0, _⟩ => show win0_12.index t (0 : Fin 2) * 128 + 1 * (y 0).val = 128 * (4 * (tq t).val + (3 : Fin 4).val) + (y 0).val; rw [e12a]; show (4 * t.val + 3) * 128 + 1 * (y 0).val = 128 * (4 * t.val + 3) + (y 0).val; omega
  | ⟨1, _⟩ => show win0_12.index t (1 : Fin 2) * 2048 + 1 * (y 1).val = (y 1).val; rw [e12b]; omega

/-! ## The running sum -/

/-- A point's contribution, from the blocks it is handed, is the specification's at that point. -/
theorem contribK_blocks (c : Dev nD) (t : Fin cfg0.N) (j : S32x2048.Idx) :
    Cert.Spec.contribK (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j
      = Cert.Spec.contribAt (V m c main_arg0) (V m c main_arg1) (V m c main_arg2) (V m c main_arg3) (tq t) j := by
  rw [blk_w0, blk_w1, blk_w2, blk_w3, blk_w4, blk_w5, blk_w6, blk_w7, blk_w8, blk_w9, blk_w10, blk_w11, blk_w12]
  rfl

theorem acc_zero_apply (c : Dev nD) (h : 0 < cfg0.N) (j : S32x2048.Idx) :
    acc m c 0 h j = Cert.Spec.contribAt (V m c main_arg0) (V m c main_arg1) (V m c main_arg2) (V m c main_arg3) (tq ⟨0, h⟩) j := by
  show contrib (iblk m c 0 ⟨0, h⟩) (iblk m c 1 ⟨0, h⟩) (iblk m c 2 ⟨0, h⟩) (iblk m c 3 ⟨0, h⟩) (iblk m c 4 ⟨0, h⟩) (iblk m c 5 ⟨0, h⟩) (iblk m c 6 ⟨0, h⟩) (iblk m c 7 ⟨0, h⟩) (iblk m c 8 ⟨0, h⟩) (iblk m c 9 ⟨0, h⟩) (iblk m c 10 ⟨0, h⟩) (iblk m c 11 ⟨0, h⟩) (iblk m c 12 ⟨0, h⟩) j = _
  unfold contrib
  exact (Cert.KernelIdeal.Pay.contrib_apply _ _ _ _ _ _ _ _ _ _ _ _ _ j).trans (contribK_blocks m c ⟨0, h⟩ j)

theorem acc_succ_apply (c : Dev nD) (n : ℕ) (h : n + 1 < cfg0.N) (j : S32x2048.Idx) :
    acc m c (n + 1) h j
      = acc m c n (Nat.lt_of_succ_lt h) j
        + Cert.Spec.contribAt (V m c main_arg0) (V m c main_arg1) (V m c main_arg2) (V m c main_arg3) (tq ⟨n + 1, h⟩) j := by
  show accum (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩) (acc m c n (Nat.lt_of_succ_lt h)) j = _
  unfold accum
  exact (Cert.KernelIdeal.Pay.accum_apply _ _ _ _ _ _ _ _ _ _ _ _ _ _ j).trans
    (congrArg (acc m c n (Nat.lt_of_succ_lt h) j + ·) (contribK_blocks m c ⟨n + 1, h⟩ j))

/-- After the last point the running sum is the whole MLP. -/
theorem acc_last (c : Dev nD) :
    acc m c tLast.val tLast.isLt = Cert.Spec.mlp (V m c main_arg0) (V m c main_arg1) (V m c main_arg2) (V m c main_arg3) := by
  funext j
  have h3 : (3 : ℕ) < cfg0.N := tLast.isLt
  have h2 : (2 : ℕ) < cfg0.N := Nat.lt_of_succ_lt h3
  have h1 : (1 : ℕ) < cfg0.N := Nat.lt_of_succ_lt h2
  have h0 : (0 : ℕ) < cfg0.N := Nat.lt_of_succ_lt h1
  have e3 : acc m c 3 h3 j = acc m c 2 h2 j
      + Cert.Spec.contribAt (V m c main_arg0) (V m c main_arg1) (V m c main_arg2) (V m c main_arg3) (tq ⟨3, h3⟩) j :=
    acc_succ_apply m c 2 h3 j
  have e2 : acc m c 2 h2 j = acc m c 1 h1 j
      + Cert.Spec.contribAt (V m c main_arg0) (V m c main_arg1) (V m c main_arg2) (V m c main_arg3) (tq ⟨2, h2⟩) j :=
    acc_succ_apply m c 1 h2 j
  have e1 : acc m c 1 h1 j = acc m c 0 h0 j
      + Cert.Spec.contribAt (V m c main_arg0) (V m c main_arg1) (V m c main_arg2) (V m c main_arg3) (tq ⟨1, h1⟩) j :=
    acc_succ_apply m c 0 h1 j
  have e0 := acc_zero_apply m c h0 j
  show acc m c 3 h3 j = _
  rw [e3, e2, e1, e0]
  exact Cert.Spec.sum_contribAt _ _ _ _ j

/-- THE VALUE RUN: every weakly fair execution terminates with the result array at the MLP of the arguments as
    launched and the arguments unchanged. -/
theorem run : θ_run defs (onTc (τ := τ) (main (F := Ideal))) ⟨m, fun _ => 0, ρ⟩ (fun r => ∀ c : Dev nD,
      r.2.mem ((c.tc : Thread nD τ).loc main_v0)
        = Cert.Spec.mlp (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (acc_last m c), (h c).2⟩) (run_value m ρ)

end Cert.KernelIdeal.Val

end
-- ==== Proof.RefValue.lean ====
/-
  The reference's result at the ideal instance is the specification's `mlp` of the four arguments: its three
  `dot_general`s are the plain sums, and jax's expansion of the logistic (negate, exponential, add one, divide one by)
  is the one function `Ideal.logistic`.
-/
import proofs.«160544_g77111842832762_cont_sun_m_58_31_alg».proof.Proof.Gen.ReferenceIdeal.Read
import proofs.«160544_g77111842832762_cont_sun_m_58_31_alg».proof.Proof.Spec
import Idealize.ShloMosaic.Lib.IdealHost

noncomputable section

namespace Cert.ReferenceIdeal.RefValue

open Cert.ReferenceIdeal Cert.ReferenceIdeal.Gen Idealize.ShloMosaic Idealize.ShloMosaic.ValueIdx

/-- The gate projection: the first `dot_general` at row `r`, column `k` is the sum over the contracted axis. -/
theorem gate_ix2 (x0 : (⟨S32x2048, .f32⟩ : BufTy).Contents (Elt Ideal)) (x1 : (⟨S2048x2048, .f32⟩ : BufTy).Contents (Elt Ideal))
    (r : Fin 32) (k : Fin 2048) :
    Cert.ReferenceIdeal.Read.val_main_v0 (F := Ideal) x0 x1 (ix2 r k) = Cert.Spec.proj x0 x1 r k := by
  rw [Cert.ReferenceIdeal.Read.val_main_v0_apply]
  unfold Cert.Spec.proj
  refine Finset.sum_congr rfl fun q _ => ?_
  rw [show Cert.ReferenceIdeal.Read.lidx_main_v0 (ix2 r k) q = ix2 r q from
        funext fun a => Fin.ext (by match a with | ⟨0, _⟩ => rfl | ⟨1, _⟩ => rfl),
      show Cert.ReferenceIdeal.Read.ridx_main_v0 (ix2 r k) q = ix2 q k from
        funext fun a => Fin.ext (by match a with | ⟨0, _⟩ => rfl | ⟨1, _⟩ => rfl)]

/-- The up projection: the second `dot_general`, likewise. -/
theorem up_ix2 (x0 : (⟨S32x2048, .f32⟩ : BufTy).Contents (Elt Ideal)) (x2 : (⟨S2048x2048, .f32⟩ : BufTy).Contents (Elt Ideal))
    (r : Fin 32) (k : Fin 2048) :
    Cert.ReferenceIdeal.Read.val_main_v1 (F := Ideal) x0 x2 (ix2 r k) = Cert.Spec.proj x0 x2 r k := by
  rw [Cert.ReferenceIdeal.Read.val_main_v1_apply]
  unfold Cert.Spec.proj
  refine Finset.sum_congr rfl fun q _ => ?_
  rw [show Cert.ReferenceIdeal.Read.lidx_main_v1 (ix2 r k) q = ix2 r q from
        funext fun a => Fin.ext (by match a with | ⟨0, _⟩ => rfl | ⟨1, _⟩ => rfl),
      show Cert.ReferenceIdeal.Read.ridx_main_v1 (ix2 r k) q = ix2 q k from
        funext fun a => Fin.ext (by match a with | ⟨0, _⟩ => rfl | ⟨1, _⟩ => rfl)]

/-- The activation: gate times one over one plus the exponential of minus the gate, times up, is `swiglu`. -/
theorem act_ix2 (x0 : (⟨S32x2048, .f32⟩ : BufTy).Contents (Elt Ideal)) (x1 x2 : (⟨S2048x2048, .f32⟩ : BufTy).Contents (Elt Ideal))
    (r : Fin 32) (k : Fin 2048) :
    Cert.ReferenceIdeal.Read.val_main_v9 (F := Ideal) x0 x1 x2 (ix2 r k)
      = Cert.Spec.swiglu (Cert.Spec.proj x0 x1 r k) (Cert.Spec.proj x0 x2 r k) := by
  rw [Cert.ReferenceIdeal.Read.val_main_v9_apply, Cert.ReferenceIdeal.Read.val_main_v8_apply,
    Cert.ReferenceIdeal.Read.val_main_v7_apply, Cert.ReferenceIdeal.Read.val_main_v6_apply,
    Cert.ReferenceIdeal.Read.val_main_cst_0_apply, Cert.ReferenceIdeal.Read.val_main_v5_apply,
    Cert.ReferenceIdeal.Read.val_main_v4_apply, Cert.ReferenceIdeal.Read.val_main_cst_apply,
    Cert.ReferenceIdeal.Read.val_main_v3_apply, Cert.ReferenceIdeal.Read.val_main_v2_apply,
    gate_ix2, up_ix2, Ideal.ofBits_def, Ideal.ofBits_one_f32]
  rfl

/-- The reference's last stage is the whole MLP of the arguments. -/
theorem ref_eq_mlp (x0 : (⟨S32x2048, .f32⟩ : BufTy).Contents (Elt Ideal)) (x1 x2 x3 : (⟨S2048x2048, .f32⟩ : BufTy).Contents (Elt Ideal)) :
    Cert.ReferenceIdeal.Read.val_main_v10 (F := Ideal) x0 x1 x2 x3 = Cert.Spec.mlp x0 x1 x2 x3 := by
  funext i
  obtain ⟨r, c, rfl⟩ : ∃ (r : Fin 32) (c : Fin 2048), i = ix2 r c := ⟨i 0, i 1, eq_ix2 i⟩
  rw [Cert.ReferenceIdeal.Read.val_main_v10_apply]
  unfold Cert.Spec.mlp
  refine Finset.sum_congr rfl fun k _ => ?_
  rw [show Cert.ReferenceIdeal.Read.lidx_main_v10 (ix2 r c) k = ix2 r k from
        funext fun a => Fin.ext (by match a with | ⟨0, _⟩ => rfl | ⟨1, _⟩ => rfl),
      show Cert.ReferenceIdeal.Read.ridx_main_v10 (ix2 r c) k = ix2 k c from
        funext fun a => Fin.ext (by match a with | ⟨0, _⟩ => rfl | ⟨1, _⟩ => rfl),
      act_ix2]

end Cert.ReferenceIdeal.RefValue

end
-- ==== Proof.lean ====
/-
  A fused SwiGLU MLP kernel against its jnp reference, equal over the extended reals.

  Reference: out = (g · logistic(g) · u) · Wd with g = x · Wg, u = x · Wu (three whole matrix products, the logistic
  spelt 1 / (1 + exp(−g))). Kernel: one pass over the intermediate axis in four blocks of 512 columns; at each block
  the two projections are sums of four partial products over 512-row slices, the activation is the same pointwise
  expression with the one-operation logistic, and the block's contribution through 128-row blocks of Wd is stored at
  the first block and added to the resident result at the later ones. At the ideal instance the logistic and its
  expansion are one function, a matrix product into a zero accumulator is the plain sum, and the kernel's value is the
  reference's one sum over 2048 columns regrouped 4 × 4 × 128 (and each projection's over 2048 rows regrouped
  4 × 512): addition on the extended reals is commutative and associative, so the regrouping is an equality for any
  inputs and the finiteness precondition is not used.

  The three frames: the reference's is its run with the result dropped. The kernel's (at the word level and
  idealized, one text generic in the float instance) is the pipelined region's run: the gate weight, the up weight
  and the down weight are each read through FOUR windows, so each array's full share is dealt in quarters to its
  windows at the region's entry; the body reads its thirteen input blocks, and its one store covers the result's
  staging block; the inputs are never written back. The ideal pass rewrote nothing, so there is nothing to preserve.
-/
import proofs.«160544_g77111842832762_cont_sun_m_58_31_alg».proof.Defs
import proofs.«160544_g77111842832762_cont_sun_m_58_31_alg».proof.Proof.Gen.Kernel
import proofs.«160544_g77111842832762_cont_sun_m_58_31_alg».proof.Proof.Gen.KernelIdeal
import proofs.«160544_g77111842832762_cont_sun_m_58_31_alg».proof.Proof.Gen.ReferenceIdeal
import proofs.«160544_g77111842832762_cont_sun_m_58_31_alg».proof.Proof.Gen.Pre_finite_inputs
import proofs.«160544_g77111842832762_cont_sun_m_58_31_alg».proof.Proof.Gen.ReferenceIdeal.Run
import proofs.«160544_g77111842832762_cont_sun_m_58_31_alg».proof.Proof.Gen.ReferenceIdeal.Read
import proofs.«160544_g77111842832762_cont_sun_m_58_31_alg».proof.Proof.Kernel.Frame
import proofs.«160544_g77111842832762_cont_sun_m_58_31_alg».proof.Proof.KernelIdeal.Value
import proofs.«160544_g77111842832762_cont_sun_m_58_31_alg».proof.Proof.RefValue

noncomputable section

namespace Cert.Proof

open Idealize.ShloMosaic Idealize.ShloMosaic.TcCoe Idealize.SL.Sem

theorem frame_k : Cert.frame_Kernel := fun m ρ _ => Cert.Kernel.Fr.frame (F := Bits) m ρ

theorem frame_ki : Cert.frame_KernelIdeal := fun m ρ _ => Cert.KernelIdeal.Fr.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the MLP of the (agreeing) arguments. -/
theorem algebraic : Cert.algebraic_KernelIdeal_ReferenceIdeal := by
  intro m ρ m' ρ' _ hagree
  refine ⟨fun c => Cert.Spec.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq_mlp,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
